-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S160000x51 : Shape := ⟨2, ![160000, 51]⟩
abbrev S10000x3 : Shape := ⟨2, ![10000, 3]⟩
abbrev S1076x256 : Shape := ⟨2, ![1076, 256]⟩
abbrev S256 : Shape := ⟨1, ![256]⟩
abbrev S256x256 : Shape := ⟨2, ![256, 256]⟩
abbrev S256x1 : Shape := ⟨2, ![256, 1]⟩
abbrev S768x256 : Shape := ⟨2, ![768, 256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000x51 : S_.BroadcastsInDim S160000x51 (![] : Fin 0 → Fin S160000x51.rank)
  reducesTo_S160000x51_S_d0_1 : S160000x51.ReducesTo [0, 1] S_
  bcast_S_S10000x3 : S_.BroadcastsInDim S10000x3 (![] : Fin 0 → Fin S10000x3.rank)
  reducesTo_S10000x3_S_d0_1 : S10000x3.ReducesTo [0, 1] S_
  bcast_S_S1076x256 : S_.BroadcastsInDim S1076x256 (![] : Fin 0 → Fin S1076x256.rank)
  reducesTo_S1076x256_S_d0_1 : S1076x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S768x256 : S_.BroadcastsInDim S768x256 (![] : Fin 0 → Fin S768x256.rank)
  reducesTo_S768x256_S_d0_1 : S768x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x256 .f32) (main_arg14 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256x256 .f32) (main_arg9 : FVec F S256 .f32) (main_arg10 : FVec F S256x1 .f32) (main_arg11 : FVec F S768x256 .f32) (main_arg12 : FVec F S256 .f32) (main_arg13 : FVec F S256x256 .f32) (main_arg14 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S768x256 .f32 := Host.absf main_arg11
  let main_cst_18 : FVec F S_ .f32 := constant S_ .f32 0x7F800000#32
  let main_v50 : FVec F S768x256 .f32 := broadcastInDim S768x256 ![] bcast_S_S768x256 main_cst_18
  fn_part3 (F := F) main_arg12 main_arg13 main_arg14 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x1 .f32) (main_arg11 : FVec F S768x256 .f32) (main_arg12 : FVec F S256 .f32) (main_arg13 : FVec F S256x256 .f32) (main_arg14 : FVec F S256 .f32) (main_v13 : IVec S_ 1) (main_v16 : IVec S1076x256 1) : IVec S_ 1 :=
  let main_c_5 : IVec S_ 1 := constantI S_ 1 1#1
  let main_v17 : IVec S_ 1 := (fun x v => Host.reduce IntOp.andi x v reducesTo_S1076x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S10000x512 .f32) (main_arg1 : IVec S2x160000 32) (main_arg2 : FVec F S160000x51 .f32) (main_arg3 : FVec F S10000x3 .f32) (main_arg4 : FVec F S1076x256 .f32) (main_arg5 : FVec F S256 .f32) (main_arg6 : FVec F S256x256 .f32) (main_arg7 : FVec F S256 .f32) (main_arg8 : FVec F S256x256 .f32) (main_arg9 : FVec F S256 .f32) (main_arg10 : FVec F S256x1 .f32) (main_arg11 : FVec F S768x256 .f32) (main_arg12 : FVec F S256 .f32) (main_arg13 : FVec F S256x256 .f32) (main_arg14 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000x51 .f32 := Host.absf main_arg2
  let main_cst_0 : FVec F S_ .f32 := constant S_ .f32 0x7F800000#32
  let main_v5 : FVec F S160000x51 .f32 := broadcastInDim S160000x51 ![] bcast_S_S160000x51 main_cst_0
  let main_v6 : IVec S160000x51 1 := cmpf .olt main_v4 main_v5
  let main_c_1 : IVec S_ 1 := constantI S_ 1 1#1
  let main_v7 : IVec S_ 1 := (fun x v => Host.reduce IntOp.andi x v reducesTo_S160000x51_S_d0_1 h_S_) main_v6 main_c_1
  let main_v8 : IVec S_ 1 := andi main_v3 main_v7
  let main_v9 : FVec F S10000x3 .f32 := Host.absf main_arg3
  let main_cst_2 : FVec F S_ .f32 := constant S_ .f32 0x7F800000#32
  let main_v10 : FVec F S10000x3 .f32 := broadcastInDim S10000x3 ![] bcast_S_S10000x3 main_cst_2
  let main_v11 : IVec S10000x3 1 := cmpf .olt main_v9 main_v10
  let main_c_3 : IVec S_ 1 := constantI S_ 1 1#1
  let main_v12 : IVec S_ 1 := (fun x v => Host.reduce IntOp.andi x v reducesTo_S10000x3_S_d0_1 h_S_) main_v11 main_c_3
  let main_v13 : IVec S_ 1 := andi main_v8 main_v12
  let main_v14 : FVec F S1076x256 .f32 := Host.absf main_arg4
  let main_cst_4 : FVec F S_ .f32 := constant S_ .f32 0x7F800000#32
  let main_v15 : FVec F S1076x256 .f32 := broadcastInDim S1076x256 ![] bcast_S_S1076x256 main_cst_4
  let main_v16 : IVec S1076x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S10000x512 : Shape := ⟨2, ![10000, 512]⟩
abbrev S2x160000 : Shape := ⟨2, ![2, 160000]⟩
abbrev S160000x51 : Shape := ⟨2, ![160000, 51]⟩
abbrev S10000x3 : Shape := ⟨2, ![10000, 3]⟩
abbrev S1076x256 : Shape := ⟨2, ![1076, 256]⟩
abbrev S256 : Shape := ⟨1, ![256]⟩
abbrev S256x256 : Shape := ⟨2, ![256, 256]⟩
abbrev S256x1 : Shape := ⟨2, ![256, 1]⟩
abbrev S768x256 : Shape := ⟨2, ![768, 256]⟩
abbrev S1x160000 : Shape := ⟨2, ![1, 160000]⟩
abbrev S160000 : Shape := ⟨1, ![160000]⟩
abbrev S512x256 : Shape := ⟨2, ![512, 256]⟩
abbrev S51x256 : Shape := ⟨2, ![51, 256]⟩
abbrev S1x256 : Shape := ⟨2, ![1, 256]⟩
abbrev S10000x256 : Shape := ⟨2, ![10000, 256]⟩
abbrev S2000x512 : Shape := ⟨2, ![2000, 512]⟩
abbrev S2000x256 : Shape := ⟨2, ![2000, 256]⟩
abbrev S_ : Shape := ⟨0, ![]⟩
abbrev S160000x1 : Shape := ⟨2, ![160000, 1]⟩
abbrev S160000x256 : Shape := ⟨2, ![160000, 256]⟩
abbrev S160000x3 : Shape := ⟨2, ![160000, 3]⟩
abbrev S1600x256 : Shape := ⟨2, ![1600, 256]⟩
abbrev S1600x51 : Shape := ⟨2, ![1600, 51]⟩
abbrev S1600x3 : Shape := ⟨2, ![1600, 3]⟩
abbrev S1600 : Shape := ⟨1, ![1600]⟩
abbrev S1600x1 : Shape := ⟨2, ![1600, 1]⟩

abbrev nBuf : Space → Nat
  | .hbm => 86
  | .vmem => 39
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S160000x51, .f32⟩
  | .hbm, ⟨3, _⟩ => ⟨S10000x3, .f32⟩
  | .hbm, ⟨4, _⟩ => ⟨S1076x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S768x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S512x256, .f32⟩
  | .hbm, ⟨20, _⟩ => ⟨S512x256, .f32⟩
  | .hbm, ⟨21, _⟩ => ⟨S51x256, .f32⟩
  | .hbm, ⟨22, _⟩ => ⟨S1x256, .f32⟩
  | .hbm, ⟨23, _⟩ => ⟨S512x256, .bf16⟩
  | .hbm, ⟨24, _⟩ => ⟨S512x256, .bf16⟩
  | .hbm, ⟨25, _⟩ => ⟨S51x256, .bf16⟩
  | .hbm, ⟨26, _⟩ => ⟨S1x256, .bf16⟩
  | .hbm, ⟨27, _⟩ => ⟨S256x256, .bf16⟩
  | .hbm, ⟨28, _⟩ => ⟨S256x256, .bf16⟩
  | .hbm, ⟨29, _⟩ => ⟨S1x256, .f32⟩
  | .hbm, ⟨30, _⟩ => ⟨S10000x256, .f32⟩
  | .hbm, ⟨31, _⟩ => ⟨S10000x256, .f32⟩
  | .hbm, ⟨32, _⟩ => ⟨S_, .i32⟩
  | .hbm, ⟨33, _⟩ => ⟨S160000, .i32⟩
  | .hbm, ⟨34, _⟩ => ⟨S160000, .i1⟩
  | .hbm, ⟨35, _⟩ => ⟨S_, .i32⟩
  | .hbm, ⟨36, _⟩ => ⟨S160000, .i32⟩
  | .hbm, ⟨37, _⟩ => ⟨S160000, .i32⟩
  | .hbm, ⟨38, _⟩ => ⟨S160000, .i32⟩
  | .hbm, ⟨39, _⟩ => ⟨S160000x1, .i32⟩
  | .hbm, ⟨40, _⟩ => ⟨S160000x256, .f32⟩
  | .hbm, ⟨41, _⟩ => ⟨S_, .i32⟩
  | .hbm, ⟨42, _⟩ => ⟨S160000, .i32⟩
  | .hbm, ⟨43, _⟩ => ⟨S160000, .i1⟩
  | .hbm, ⟨44, _⟩ => ⟨S_, .i32⟩
  | .hbm, ⟨45, _⟩ => ⟨S160000, .i32⟩
  | .hbm, ⟨46, _⟩ => ⟨S160000, .i32⟩
  | .hbm, ⟨47, _⟩ => ⟨S160000, .i32⟩
  | .hbm, ⟨48, _⟩ => ⟨S160000x1, .i32⟩
  | .hbm, ⟨49, _⟩ => ⟨S160000x256, .f32⟩
  | .hbm, ⟨50, _⟩ => ⟨S_, .i32⟩
  | .hbm, ⟨51, _⟩ => ⟨S160000, .i32⟩
  | .hbm, ⟨52, _⟩ => ⟨S160000, .i1⟩
  | .hbm, ⟨53, _⟩ => ⟨S_, .i32⟩
  | .hbm, ⟨54, _⟩ => ⟨S160000, .i32⟩
  | .hbm, ⟨55, _⟩ => ⟨S160000, .i32⟩
  | .hbm, ⟨56, _⟩ => ⟨S160000, .i32⟩
  | .hbm, ⟨57, _⟩ => ⟨S160000x1, .i32⟩
  | .hbm, ⟨58, _⟩ => ⟨S160000x3, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000x3, .f32⟩
  | .hbm, ⟨68, _⟩ => ⟨S160000x3, .f32⟩
  | .hbm, ⟨69, _⟩ => ⟨S160000x256, .f32⟩
  | .hbm, ⟨70, _⟩ => ⟨S160000x3, .f32⟩
  | .hbm, ⟨71, _⟩ => ⟨S_, .f32⟩
  | .hbm, ⟨72, _⟩ => ⟨S10000x3, .f32⟩
  | .hbm, ⟨73, _⟩ => ⟨S160000x1, .i32⟩
  | .hbm, ⟨74, _⟩ => ⟨S10000x3, .f32⟩
  | .hbm, ⟨75, _⟩ => ⟨S_, .f32⟩
  | .hbm, ⟨76, _⟩ => ⟨S10000x256, .f32⟩
  | .hbm, ⟨77, _⟩ => ⟨S160000x1, .i32⟩
  | .hbm, ⟨78, _⟩ => ⟨S10000x256, .f32⟩
  | .hbm, ⟨79, _⟩ => ⟨S10000x3, .f32⟩
  | .hbm, ⟨80, _⟩ => ⟨S512x256, .f32⟩
  | .hbm, ⟨81, _⟩ => ⟨S512x256, .bf16⟩
  | .hbm, ⟨82, _⟩ => ⟨S256x256, .f32⟩
  | .hbm, ⟨83, _⟩ => ⟨S256x256, .bf16⟩
  | .hbm, ⟨84, _⟩ => ⟨S256x256, .bf16⟩
  | .hbm, ⟨85, _⟩ => ⟨S10000x256, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S512x256, .bf16⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1600x256, .f32⟩
  | .local _ .vmem, ⟨9, _⟩ => ⟨S1600x256, .f32⟩
  | .local _ .vmem, ⟨10, _⟩ => ⟨S1600x256, .f32⟩
  | .local _ .vmem, ⟨11, _⟩ => ⟨S1600x256, .f32⟩
  | .local _ .vmem, ⟨12, _⟩ => ⟨S1600x51, .f32⟩
  | .local _ .vmem, ⟨13, _⟩ => ⟨S1600x51, .f32⟩
  | .local _ .vmem, ⟨14, _⟩ => ⟨S1600x3, .f32⟩
  | .local _ .vmem, ⟨15, _⟩ => ⟨S1600x3, .f32⟩
  | .local _ .vmem, ⟨16, _⟩ => ⟨S51x256, .bf16⟩
  | .local _ .vmem, ⟨17, _⟩ => ⟨S1x256, .bf16⟩
  | .local _ .vmem, ⟨18, _⟩ => ⟨S256, .f32⟩
  | .local _ .vmem, ⟨19, _⟩ => ⟨S256x256, .bf16⟩
  | .local _ .vmem, ⟨20, _⟩ => ⟨S256, .f32⟩
  | .local _ .vmem, ⟨21, _⟩ => ⟨S256x256, .bf16⟩
  | .local _ .vmem, ⟨22, _⟩ => ⟨S256, .f32⟩
  | .local _ .vmem, ⟨23, _⟩ => ⟨S1x256, .f32⟩
  | .local _ .vmem, ⟨24, _⟩ => ⟨S1600x256, .f32⟩
  | .local _ .vmem, ⟨25, _⟩ => ⟨S1600x256, .f32⟩
  | .local _ .vmem, ⟨26, _⟩ => ⟨S1600x3, .f32⟩
  | .local _ .vmem, ⟨27, _⟩ => ⟨S1600x3, .f32⟩
  | .local _ .vmem, ⟨28, _⟩ => ⟨S2000x512, .f32⟩
  | .local _ .vmem, ⟨29, _⟩ => ⟨S2000x512, .f32⟩
  | .local _ .vmem, ⟨30, _⟩ => ⟨S2000x256, .f32⟩
  | .local _ .vmem, ⟨31, _⟩ => ⟨S2000x256, .f32⟩
  | .local _ .vmem, ⟨32, _⟩ => ⟨S512x256, .bf16⟩
  | .local _ .vmem, ⟨33, _⟩ => ⟨S256x256, .bf16⟩
  | .local _ .vmem, ⟨34, _⟩ => ⟨S256, .f32⟩
  | .local _ .vmem, ⟨35, _⟩ => ⟨S256x256, .bf16⟩
  | .local _ .vmem, ⟨36, _⟩ => ⟨S256, .f32⟩
  | .local _ .vmem, ⟨37, _⟩ => ⟨S2000x256, .f32⟩
  | .local _ .vmem, ⟨38, _⟩ => ⟨S2000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_cst : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25
abbrev cc1_sem13_0 : DmaSem sig := 26
abbrev cc1_sem13_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x51 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S51x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1600x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1600x3 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S1076x256_S512x256_0_0 : S1076x256.Slices ![0, 0] S512x256
  slices_S1076x256_S512x256_512_0 : S1076x256.Slices ![512, 0] S512x256
  slices_S1076x256_S51x256_1024_0 : S1076x256.Slices ![1024, 0] S51x256
  slices_S1076x256_S1x256_1075_0 : S1076x256.Slices ![1075, 0] S1x256
  bitsLt_bf16_f32 : FTy.bits .bf16 < FTy.bits .f32
  shapeCasts_S256x1_S1x256 : S256x1.ShapeCasts S1x256
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S_S160000 : S_.BroadcastsInDim S160000 (![] : Fin 0 → Fin S160000.rank)
  bcast_S160000_S160000x1_0 : S160000.BroadcastsInDim S160000x1 (![0] : Fin 1 → Fin S160000x1.rank)
  inb_S1600x3_S1600x3_0_0 : ∀ a, (![0, 0] : Fin 2 → Nat) a + S1600x3.size a ≤ S1600x3.size a
  h_S1600x3 : 0 < S1600x3.numel
  shapeCasts_S1600x3_S1600x3 : S1600x3.ShapeCasts S1600x3
  reduces_S1600x3_S1600 : S1600x3.Reduces [1] S1600
  shapeCasts_S1600_S1600x1 : S1600.ShapeCasts S1600x1
  inb_S1600x51_S1600x51_0_0 : ∀ a, (![0, 0] : Fin 2 → Nat) a + S1600x51.size a ≤ S1600x51.size a
  h_S1600x51 : 0 < S1600x51.numel
  inb_S1600x256_S1600x256_0_0 : ∀ a, (![0, 0] : Fin 2 → Nat) a + S1600x256.size a ≤ S1600x256.size a
  h_S1600x256 : 0 < S1600x256.numel
  shapeCasts_S1600x256_S1600x256 : S1600x256.ShapeCasts S1600x256
  inb_S51x256_S51x256_0_0 : ∀ a, (![0, 0] : Fin 2 → Nat) a + S51x256.size a ≤ S51x256.size a
  h_S51x256 : 0 < S51x256.numel
  shapeCasts_S51x256_S51x256 : S51x256.ShapeCasts S51x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1600x1_S1600x256 : S1600x1.Broadcasts S1600x256
  broadcasts_S1x256_S1600x256 : S1x256.Broadcasts S1600x256
  inb_S256_S256_0 : ∀ a, (![0] : Fin 1 → Nat) a + S256.size a ≤ S256.size a
  h_S256 : 0 < S256.numel
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1600x256_S1600 : S1600x256.Reduces [1] S1600
  broadcasts_S1600x1_S1600x3 : S1600x1.Broadcasts S1600x3
  bcast_S_S10000x3 : S_.BroadcastsInDim S10000x3 (![] : Fin 0 → Fin S10000x3.rank)
  bcast_S_S10000x256 : S_.BroadcastsInDim S10000x256 (![] : Fin 0 → Fin S10000x256.rank)
  slices_S768x256_S512x256_0_0 : S768x256.Slices ![0, 0] S512x256
  slices_S768x256_S256x256_512_0 : S768x256.Slices ![512, 0] S256x256
  shapeCasts_S2000x256_S2000x256 : S2000x256.ShapeCasts S2000x256
  broadcasts_S1x256_S2000x256 : S1x256.Broadcasts S2000x256
  dot_S2000x512_S512x256_S2000x256_1_0_0_1_n_n_wf : DotDims.WF S2000x512 S512x256 S2000x256 [1] [0] [0] [1] [] []
  gather_S10000x256_S160000x1_S160000x256_1_0_n_n_0_1_1256_wf : GatherDims.WF S10000x256 S160000x1 S160000x256 [1] [0] [] [0] [] 1 ![1, 256]
  gather_S10000x3_S160000x1_S160000x3_1_0_n_n_0_1_13_wf : GatherDims.WF S10000x3 S160000x1 S160000x3 [1] [0] [] [0] [] 1 ![1, 3]
  dot_S1600x51_S51x256_S1600x256_1_0_0_1_n_n_wf : DotDims.WF S1600x51 S51x256 S1600x256 [1] [0] [0] [1] [] []
  dot_S1600x256_S256x256_S1600x256_1_0_0_1_n_n_wf : DotDims.WF S1600x256 S256x256 S1600x256 [1] [0] [0] [1] [] []
  scatter_S10000x3_S160000x1_S160000x3_1_0_0_1_wf : ScatterDims.WF S10000x3 S160000x1 S160000x3 [1] [0] [0] 1
  scatter_S10000x256_S160000x1_S160000x256_1_0_0_1_wf : ScatterDims.WF S10000x256 S160000x1 S160000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x256.size a ≤ S160000x256.size a
  hwx1_0 : ∀ i : grid1.Coords, EltTy.bits .f32 = 32 ∨ (Rect.block (s := S160000x256) S1600x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x256.size a ≤ S160000x256.size a
  hwx1_1 : ∀ i : grid1.Coords, EltTy.bits .f32 = 32 ∨ (Rect.block (s := S160000x256) S1600x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1600x51.size a ≤ S160000x51.size a
  hwx1_2 : ∀ i : grid1.Coords, EltTy.bits .f32 = 32 ∨ (Rect.block (s := S160000x51) S1600x51.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1600x3.size a ≤ S160000x3.size a
  hwx1_3 : ∀ i : grid1.Coords, EltTy.bits .f32 = 32 ∨ (Rect.block (s := S160000x3) S1600x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S51x256.size a ≤ S51x256.size a
  hwx1_4 : ∀ i : grid1.Coords, EltTy.bits .bf16 = 32 ∨ (Rect.block (s := S51x256) S51x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .bf16 = 32 ∨ (Rect.block (s := S1x256) S1x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .bf16 = 32 ∨ (Rect.block (s := S256x256) S256x256.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1600x256.size a ≤ S160000x256.size a
  hwx1_12 : ∀ i : grid1.Coords, EltTy.bits .f32 = 32 ∨ (Rect.block (s := S160000x256) S1600x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1600x3.size a ≤ S160000x3.size a
  hwx1_13 : ∀ i : grid1.Coords, EltTy.bits .f32 = 32 ∨ (Rect.block (s := S160000x3) S1600x3.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S10000x512.size a
  hwx2_0 : ∀ i : grid2.Coords, EltTy.bits .f32 = 32 ∨ (Rect.block (s := S10000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .bf16 = 32 ∨ (Rect.block (s := S512x256) S512x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S10000x256.size a
  hwx2_7 : ∀ i : grid2.Coords, EltTy.bits .f32 = 32 ∨ (Rect.block (s := S10000x256) S2000x256.size (cc2_transform_7 i) (hinb2_7 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def gather_S10000x3_S160000x1_S160000x3_1_0_n_n_0_1_13 : GatherDims S10000x3 S160000x1 S160000x3 where
  offsetDims := [1]
  collapsedSliceDims := [0]
  operandBatchingDims := []
  startIndicesBatchingDims := []
  startIndexMap := [0]
  indexVectorDim := 1
  sliceSizes := ![1, 3]
  wf := gather_S10000x3_S160000x1_S160000x3_1_0_n_n_0_1_13_wf
def dot_S1600x51_S51x256_S1600x256_1_0_0_1_n_n : DotDims S1600x51 S51x256 S1600x256 where
  lhsContracting := [1]
  rhsContracting := [0]
  lhsNonContracting := [0]
  rhsNonContracting := [1]
  lhsBatch := []
  rhsBatch := []
  wf := dot_S1600x51_S51x256_S1600x256_1_0_0_1_n_n_wf
def dot_S1600x256_S256x256_S1600x256_1_0_0_1_n_n : DotDims S1600x256 S256x256 S1600x256 where
  lhsContracting := [1]
  rhsContracting := [0]
  lhsNonContracting := [0]
  rhsNonContracting := [1]
  lhsBatch := []
  rhsBatch := []
  wf := dot_S1600x256_S256x256_S1600x256_1_0_0_1_n_n_wf
def scatter_S10000x3_S160000x1_S160000x3_1_0_0_1 : ScatterDims S10000x3 S160000x1 S160000x3 where
  updateWindowDims := [1]
  insertedWindowDims := [0]
  scatterDimsToOperandDims := [0]
  indexVectorDim := 1
  wf := scatter_S10000x3_S160000x1_S160000x3_1_0_0_1_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S1600x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1600x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1600x51.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1600x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S51x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg9) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v14) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v45_0) S1600x256.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v45_1) S1600x3.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_arg0) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S160000x51 : Shape := ⟨2, ![160000, 51]⟩
abbrev S10000x3 : Shape := ⟨2, ![10000, 3]⟩
abbrev S1076x256 : Shape := ⟨2, ![1076, 256]⟩
abbrev S256 : Shape := ⟨1, ![256]⟩
abbrev S256x256 : Shape := ⟨2, ![256, 256]⟩
abbrev S256x1 : Shape := ⟨2, ![256, 1]⟩
abbrev S768x256 : Shape := ⟨2, ![768, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x3 : Shape := ⟨2, ![160000, 3]⟩
abbrev S160000x512 : Shape := ⟨2, ![160000, 512]⟩
abbrev S160000x1076 : Shape := ⟨2, ![160000, 1076]⟩
abbrev S160000x256 : Shape := ⟨2, ![160000, 256]⟩
abbrev S1x256 : Shape := ⟨2, ![1, 256]⟩
abbrev S10000x256 : Shape := ⟨2, ![10000, 256]⟩
abbrev S10000x768 : Shape := ⟨2, ![10000, 768]⟩

abbrev nBuf : Space → Nat
  | .hbm => 142
  | .vmem => 0
  | .smem => 0
  | _ => 0

abbrev hbmTy0_0 (i : Nat) : BufTy := match i % 128 with
  | 0 => ⟨S10000x512, .f32⟩
  | 1 => ⟨S2x160000, .i32⟩
  | 2 => ⟨S160000x51, .f32⟩
  | 3 => ⟨S10000x3, .f32⟩
  | 4 => ⟨S1076x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x1, .f32⟩
  | 11 => ⟨S768x256, .f32⟩
  | 12 => ⟨S256, .f32⟩
  | 13 => ⟨S256x256, .f32⟩
  | 14 => ⟨S256, .f32⟩
  | 15 => ⟨S1x160000, .i32⟩
  | 16 => ⟨S160000, .i32⟩
  | 17 => ⟨S1x160000, .i32⟩
  | 18 => ⟨S160000, .i32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000x3, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x3, .f32⟩
  | 37 => ⟨S160000x3, .f32⟩
  | 38 => ⟨S160000x3, .f32⟩
  | 39 => ⟨S_, .f32⟩
  | 40 => ⟨S160000, .f32⟩
  | 41 => ⟨S160000x1, .f32⟩
  | 42 => ⟨S160000x1, .f32⟩
  | 43 => ⟨S_, .f32⟩
  | 44 => ⟨S160000x1, .f32⟩
  | 45 => ⟨S160000x1, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x512, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x512, .f32⟩
  | 64 => ⟨S160000x1076, .f32⟩
  | 65 => ⟨S160000x256, .f32⟩
  | 66 => ⟨S1x256, .f32⟩
  | 67 => ⟨S160000x256, .f32⟩
  | 68 => ⟨S160000x256, .f32⟩
  | 69 => ⟨S160000x256, .f32⟩
  | 70 => ⟨S160000x256, .f32⟩
  | 71 => ⟨S_, .f32⟩
  | 72 => ⟨S160000x256, .f32⟩
  | 73 => ⟨S160000x256, .f32⟩
  | 74 => ⟨S_, .f32⟩
  | 75 => ⟨S160000x256, .f32⟩
  | 76 => ⟨S160000x256, .f32⟩
  | 77 => ⟨S160000x256, .f32⟩
  | 78 => ⟨S160000x256, .f32⟩
  | 79 => ⟨S1x256, .f32⟩
  | 80 => ⟨S160000x256, .f32⟩
  | 81 => ⟨S160000x256, .f32⟩
  | 82 => ⟨S160000x256, .f32⟩
  | 83 => ⟨S160000x256, .f32⟩
  | 84 => ⟨S_, .f32⟩
  | 85 => ⟨S160000x256, .f32⟩
  | 86 => ⟨S160000x256, .f32⟩
  | 87 => ⟨S_, .f32⟩
  | 88 => ⟨S160000x256, .f32⟩
  | 89 => ⟨S160000x256, .f32⟩
  | 90 => ⟨S160000x256, .f32⟩
  | 91 => ⟨S160000x256, .f32⟩
  | 92 => ⟨S1x256, .f32⟩
  | 93 => ⟨S160000x256, .f32⟩
  | 94 => ⟨S160000x256, .f32⟩
  | 95 => ⟨S160000x256, .f32⟩
  | 96 => ⟨S160000x256, .f32⟩
  | 97 => ⟨S_, .f32⟩
  | 98 => ⟨S160000x256, .f32⟩
  | 99 => ⟨S160000x256, .f32⟩
  | 100 => ⟨S_, .f32⟩
  | 101 => ⟨S160000x256, .f32⟩
  | 102 => ⟨S160000x256, .f32⟩
  | 103 => ⟨S160000x256, .f32⟩
  | 104 => ⟨S160000x1, .f32⟩
  | 105 => ⟨S_, .f32⟩
  | 106 => ⟨S_, .f32⟩
  | 107 => ⟨S_, .f32⟩
  | 108 => ⟨S160000x1, .f32⟩
  | 109 => ⟨S160000x1, .f32⟩
  | 110 => ⟨S_, .f32⟩
  | 111 => ⟨S160000x1, .f32⟩
  | 112 => ⟨S160000x1, .f32⟩
  | 113 => ⟨S160000x3, .f32⟩
  | 114 => ⟨S160000x3, .f32⟩
  | 115 => ⟨S_, .f32⟩
  | 116 => ⟨S10000x3, .f32⟩
  | 117 => ⟨S160000x1, .i32⟩
  | 118 => ⟨S10000x3, .f32⟩
  | 119 => ⟨S10000x3, .f32⟩
  | 120 => ⟨S_, .f32⟩
  | 121 => ⟨S10000x256, .f32⟩
  | 122 => ⟨S160000x1, .i32⟩
  | 123 => ⟨S10000x256, .f32⟩
  | 124 => ⟨S10000x768, .f32⟩
  | 125 => ⟨S10000x256, .f32⟩
  | 126 => ⟨S1x256, .f32⟩
  | 127 => ⟨S10000x256, .f32⟩
  | _ => ⟨S10000x512, .f32⟩

abbrev hbmTy0_1 (i : Nat) : BufTy := match i % 128 with
  | 0 => ⟨S10000x256, .f32⟩
  | 1 => ⟨S10000x256, .f32⟩
  | 2 => ⟨S10000x256, .f32⟩
  | 3 => ⟨S_, .f32⟩
  | 4 => ⟨S10000x256, .f32⟩
  | 5 => ⟨S10000x256, .f32⟩
  | 6 => ⟨S_, .f32⟩
  | 7 => ⟨S10000x256, .f32⟩
  | 8 => ⟨S10000x256, .f32⟩
  | 9 => ⟨S10000x256, .f32⟩
  | 10 => ⟨S10000x256, .f32⟩
  | 11 => ⟨S1x256, .f32⟩
  | 12 => ⟨S10000x256, .f32⟩
  | 13 => ⟨S10000x256, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v54 : Ref sig .tc := ⟨.hbm, 103, rfl⟩
abbrev main_v55 : Ref sig .tc := ⟨.hbm, 104, rfl⟩
abbrev main_cst_8 : Ref sig .tc := ⟨.hbm, 105, rfl⟩
abbrev main_cst_9 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_11 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  reducesTo_S160000x3_S160000_d1 : S160000x3.ReducesTo [1] S160000
  h_S_ : 0 < S_.numel
  bcast_S_S160000x1 : S_.BroadcastsInDim S160000x1 (![] : Fin 0 → Fin S160000x1.rank)
  concatenates_S160000x512_S160000x512_S160000x51_S160000x1_S160000x1076_d1 : Shape.Concatenates [S160000x512, S160000x512, S160000x51, S160000x1] S160000x1076 1
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  bcast_S160000x1_S160000x3_0_1 : S160000x1.BroadcastsInDim S160000x3 (![0, 1] : Fin 2 → Fin S160000x3.rank)
  bcast_S_S10000x3 : S_.BroadcastsInDim S10000x3 (![] : Fin 0 → Fin S10000x3.rank)
  bcast_S_S10000x256 : S_.BroadcastsInDim S10000x256 (![] : Fin 0 → Fin S10000x256.rank)
  concatenates_S10000x512_S10000x256_S10000x768_d1 : Shape.Concatenates [S10000x512, S10000x256] S10000x768 1
  bcast_S1x256_S10000x256_0_1 : S1x256.BroadcastsInDim S10000x256 (![0, 1] : Fin 2 → Fin S10000x256.rank)
  gather_S10000x3_S160000x1_S160000x3_1_0_n_n_0_1_13_wf : GatherDims.WF S10000x3 S160000x1 S160000x3 [1] [0] [] [0] [] 1 ![1, 3]
  gather_S10000x512_S160000x1_S160000x512_1_0_n_n_0_1_1512_wf : GatherDims.WF S10000x512 S160000x1 S160000x512 [1] [0] [] [0] [] 1 ![1, 512]
  dot_S160000x1076_S1076x256_S160000x256_1_0_0_1_n_n_wf : DotDims.WF S160000x1076 S1076x256 S160000x256 [1] [0] [0] [1] [] []
  dot_S160000x256_S256x256_S160000x256_1_0_0_1_n_n_wf : DotDims.WF S160000x256 S256x256 S160000x256 [1] [0] [0] [1] [] []
  dot_S160000x256_S256x1_S160000x1_1_0_0_1_n_n_wf : DotDims.WF S160000x256 S256x1 S160000x1 [1] [0] [0] [1] [] []
  scatter_S10000x3_S160000x1_S160000x3_1_0_0_1_wf : ScatterDims.WF S10000x3 S160000x1 S160000x3 [1] [0] [0] 1
  scatter_S10000x256_S160000x1_S160000x256_1_0_0_1_wf : ScatterDims.WF S10000x256 S160000x1 S160000x256 [1] [0] [0] 1
  dot_S10000x768_S768x256_S10000x256_1_0_0_1_n_n_wf : DotDims.WF S10000x768 S768x256 S10000x256 [1] [0] [0] [1] [] []
  dot_S10000x256_S256x256_S10000x256_1_0_0_1_n_n_wf : DotDims.WF S10000x256 S256x256 S10000x256 [1] [0] [0] [1] [] []

variable [Facts₀]

def gather_S10000x3_S160000x1_S160000x3_1_0_n_n_0_1_13 : GatherDims S10000x3 S160000x1 S160000x3 where
  offsetDims := [1]
  collapsedSliceDims := [0]
  operandBatchingDims := []
  startIndicesBatchingDims := []
  startIndexMap := [0]
  indexVectorDim := 1
  sliceSizes := ![1, 3]
  wf := gather_S10000x3_S160000x1_S160000x3_1_0_n_n_0_1_13_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def dot_S160000x1076_S1076x256_S160000x256_1_0_0_1_n_n : DotDims S160000x1076 S1076x256 S160000x256 where
  lhsContracting := [1]
  rhsContracting := [0]
  lhsNonContracting := [0]
  rhsNonContracting := [1]
  lhsBatch := []
  rhsBatch := []
  wf := dot_S160000x1076_S1076x256_S160000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def dot_S160000x256_S256x1_S160000x1_1_0_0_1_n_n : DotDims S160000x256 S256x1 S160000x1 where
  lhsContracting := [1]
  rhsContracting := [0]
  lhsNonContracting := [0]
  rhsNonContracting := [1]
  lhsBatch := []
  rhsBatch := []
  wf := dot_S160000x256_S256x1_S160000x1_1_0_0_1_n_n_wf
def scatter_S10000x3_S160000x1_S160000x3_1_0_0_1 : ScatterDims S10000x3 S160000x1 S160000x3 where
  updateWindowDims := [1]
  insertedWindowDims := [0]
  scatterDimsToOperandDims := [0]
  indexVectorDim := 1
  wf := scatter_S10000x3_S160000x1_S160000x3_1_0_0_1_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Spec.lean ====
/-
  One layer of an E(n)-equivariant graph network, edge by edge and node by node, at the ideal values.

  For an edge with gathered projections `ha`, `hb` (rows of `h · W₁ₐ`, `h · W₁ᵦ`), attributes `ea` and coordinate
  difference `df`:
      radial      = √(Σ_d df_d²) + ε
      h1_j        = ((ha_j + hb_j) + Σ_k at_k · W₁c(k, j)) + radial · W₁r(0, j) + b₁_j
      e_j         = silu (Σ_k silu(h1_k) · W₂(k, j) + b₂_j)
      coord       = min 1 (max (−1) (Σ_j silu (Σ_k e_k · C₁(k, j) + c₁_j) · C₂(0, j)))
      trans_d     = coord · df_d
  and for a node with features `h` and aggregated messages `ag`:
      n1_j        = (Σ_k h_k · N₁ₐ(k, j) + Σ_k ag_k · N₁ᵦ(k, j)) + n₁_j
      out_j       = Σ_k silu(n1_k) · N₂(k, j) + n₂_j.
  Every function is stated for an array of any number `n` of rows, so that the same text reads a block of rows
  and the whole array; a row of the result reads only the same row of the row-indexed operands (`*_row_congr`).
-/
import Idealize.ShloMosaic.Lib.ValueIdx
import Idealize.ShloMosaic.PureOps.Ideal.Laws

noncomputable section

open scoped BigOperators

namespace Egnn

open Idealize.ShloMosaic Idealize.ShloMosaic.ValueIdx

/-- A rank-2 array of extended reals with `n` rows and `k` columns. -/
abbrev Arr (n k : Nat) := (⟨2, ![n, k]⟩ : Shape).Idx → EReal
/-- A rank-1 array of extended reals. -/
abbrev Arr1 (n : Nat) := (⟨1, ![n]⟩ : Shape).Idx → EReal

/-- `x · σ(x)`, σ the logistic function. -/
def silu (x : EReal) : EReal := x * Ideal.logistic x

/-- The small constant added to an edge's length (its float word, read at the ideal values). -/
def eps : EReal := Ideal.ofBits .f32 0x322BCC77#32
/-- The clip's bounds. -/
def lo : EReal := Ideal.ofBits .f32 0xBF800000#32
def hi : EReal := Ideal.ofBits .f32 0x3F800000#32

/-- Rows of `x` times the matrix `w`. -/
def proj {n : Nat} (x : Arr n 512) (w : Arr 512 256) : Arr n 256 :=
  fun i => ∑ k : Fin 512, x (ix2 (i 0) k) * w (ix2 k (i 1))

theorem proj_apply {n : Nat} (x : Arr n 512) (w : Arr 512 256) (r : Fin n) (j : Fin 256) :
    proj x w (ix2 r j) = ∑ k : Fin 512, x (ix2 r k) * w (ix2 k j) := rfl

section Edge
variable {n : Nat} (ha hb : Arr n 256) (ea : Arr n 51) (df : Arr n 3)
  (w1c : Arr 51 256) (w1r : Arr 1 256) (b1 : Arr1 256) (w2 : Arr 256 256) (b2 : Arr1 256)
  (c1 : Arr 256 256) (cb1 : Arr1 256) (c2 : Arr 1 256)

/-- The length of edge `r`'s coordinate difference, plus ε. -/
def radial (r : Fin n) : EReal := Ideal.sqrt (∑ d : Fin 3, df (ix2 r d) * df (ix2 r d)) + eps

/-- The first edge layer before its activation. -/
def edgeH1 (r : Fin n) (j : Fin 256) : EReal :=
  (((ha (ix2 r j) + hb (ix2 r j)) + ∑ k : Fin 51, ea (ix2 r k) * w1c (ix2 k j))
    + radial df r * w1r (ix2 (0 : Fin 1) j)) + b1 (ix1 j)

/-- The edge message. -/
def edgeEAt (r : Fin n) (j : Fin 256) : EReal :=
  silu ((∑ k : Fin 256, silu (edgeH1 ha hb ea df w1c w1r b1 r k) * w2 (ix2 k j)) + b2 (ix1 j))

/-- The clipped coordinate weight of an edge. -/
def edgeCoordAt (r : Fin n) : EReal :=
  min hi (max lo (∑ j : Fin 256,
    silu ((∑ k : Fin 256, edgeEAt ha hb ea df w1c w1r b1 w2 b2 r k * c1 (ix2 k j)) + cb1 (ix1 j)) * c2 (ix2 (0 : Fin 1) j)))

/-- The edge's coordinate update. -/
def edgeTransAt (r : Fin n) (d : Fin 3) : EReal :=
  edgeCoordAt ha hb ea df w1c w1r b1 w2 b2 c1 cb1 c2 r * df (ix2 r d)

/-- The messages as an array. -/
def edgeE : Arr n 256 := fun i => edgeEAt ha hb ea df w1c w1r b1 w2 b2 (i 0) (i 1)
/-- The coordinate updates as an array. -/
def edgeTrans : Arr n 3 := fun i => edgeTransAt ha hb ea df w1c w1r b1 w2 b2 c1 cb1 c2 (i 0) (i 1)

end Edge

section EdgeCongr
variable {n n' : Nat} (ha hb : Arr n 256) (ea : Arr n 51) (df : Arr n 3) (ha' hb' : Arr n' 256) (ea' : Arr n' 51) (df' : Arr n' 3)
  (w1c : Arr 51 256) (w1r : Arr 1 256) (b1 : Arr1 256) (w2 : Arr 256 256) (b2 : Arr1 256)
  (c1 : Arr 256 256) (cb1 : Arr1 256) (c2 : Arr 1 256) (r : Fin n) (r' : Fin n')
  (hA : ∀ k, ha (ix2 r k) = ha' (ix2 r' k)) (hB : ∀ k, hb (ix2 r k) = hb' (ix2 r' k))
  (hT : ∀ k, ea (ix2 r k) = ea' (ix2 r' k)) (hD : ∀ k, df (ix2 r k) = df' (ix2 r' k))
include hA hB hT hD

/-- An edge's first layer reads only that edge's rows. -/
theorem edgeH1_row_congr (j : Fin 256) :
    edgeH1 ha hb ea df w1c w1r b1 r j = edgeH1 ha' hb' ea' df' w1c w1r b1 r' j := by
  unfold edgeH1 radial
  rw [hA j, hB j]
  simp only [hT, hD]

/-- An edge's message reads only that edge's rows. -/
theorem edgeE_row_congr (j : Fin 256) :
    edgeE ha hb ea df w1c w1r b1 w2 b2 (ix2 r j) = edgeE ha' hb' ea' df' w1c w1r b1 w2 b2 (ix2 r' j) := by
  show edgeEAt ha hb ea df w1c w1r b1 w2 b2 r j = edgeEAt ha' hb' ea' df' w1c w1r b1 w2 b2 r' j
  unfold edgeEAt
  simp only [edgeH1_row_congr ha hb ea df ha' hb' ea' df' w1c w1r b1 r r' hA hB hT hD]

/-- An edge's coordinate update reads only that edge's rows. -/
theorem edgeTrans_row_congr (d : Fin 3) :
    edgeTrans ha hb ea df w1c w1r b1 w2 b2 c1 cb1 c2 (ix2 r d) = edgeTrans ha' hb' ea' df' w1c w1r b1 w2 b2 c1 cb1 c2 (ix2 r' d) := by
  show edgeTransAt ha hb ea df w1c w1r b1 w2 b2 c1 cb1 c2 r d = edgeTransAt ha' hb' ea' df' w1c w1r b1 w2 b2 c1 cb1 c2 r' d
  unfold edgeTransAt edgeCoordAt edgeEAt
  simp only [edgeH1_row_congr ha hb ea df ha' hb' ea' df' w1c w1r b1 r r' hA hB hT hD, hD]

end EdgeCongr

section Node
variable {n : Nat} (h : Arr n 512) (ag : Arr n 256) (w1a : Arr 512 256) (w1b : Arr 256 256) (b1 : Arr1 256)
  (w2 : Arr 256 256) (b2 : Arr1 256)

/-- The first node layer before its activation. -/
def nodeH1 (r : Fin n) (j : Fin 256) : EReal :=
  ((∑ k : Fin 512, h (ix2 r k) * w1a (ix2 k j)) + ∑ k : Fin 256, ag (ix2 r k) * w1b (ix2 k j)) + b1 (ix1 j)

/-- The node's new features. -/
def nodeAt (r : Fin n) (j : Fin 256) : EReal :=
  (∑ k : Fin 256, silu (nodeH1 h ag w1a w1b b1 r k) * w2 (ix2 k j)) + b2 (ix1 j)

/-- The new features as an array. -/
def node : Arr n 256 := fun i => nodeAt h ag w1a w1b b1 w2 b2 (i 0) (i 1)

end Node

/-- A node's new features read only that node's rows. -/
theorem node_row_congr {n n' : Nat} (h : Arr n 512) (ag : Arr n 256) (h' : Arr n' 512) (ag' : Arr n' 256)
    (w1a : Arr 512 256) (w1b : Arr 256 256) (b1 : Arr1 256) (w2 : Arr 256 256) (b2 : Arr1 256) (r : Fin n) (r' : Fin n')
    (hH : ∀ k, h (ix2 r k) = h' (ix2 r' k)) (hG : ∀ k, ag (ix2 r k) = ag' (ix2 r' k)) (j : Fin 256) :
    node h ag w1a w1b b1 w2 b2 (ix2 r j) = node h' ag' w1a w1b b1 w2 b2 (ix2 r' j) := by
  show nodeAt h ag w1a w1b b1 w2 b2 r j = nodeAt h' ag' w1a w1b b1 w2 b2 r' j
  unfold nodeAt nodeH1
  simp only [hH, hG]

end Egnn

end
-- ==== Proof.KTerms.lean ====
/-
  The two results of the kernel's program as ONE term each of its fifteen argument arrays, at the ideal values: the host
  operations between the launches spelled as the program spells them (slices of the weight matrices, the wrapped
  edge indices, the row gathers, the segment sums), the three launches by what they compute (`Egnn.proj`, `Egnn.edgeE`,
  `Egnn.edgeTrans`, `Egnn.node`).
      hWa = h · W₁[0:512],  hWb = h · W₁[512:1024]                     (per node)
      e, trans = edge layer of (hWa[row], hWb[col], attr, pos[row] − pos[col])
      out₁ = pos + Σ_{edges into a node} trans,   out₀ = node layer of (h, Σ_{edges into a node} e).
-/
import proofs.«431407_j47528108097729_3_alg».proof.Proof.Gen.KernelIdeal
import proofs.«431407_j47528108097729_3_alg».proof.Proof.Spec

noncomputable section

namespace Cert.KernelIdeal.KT

open Cert.KernelIdeal Cert.KernelIdeal.Gen Idealize.ShloMosaic Egnn

/-- A float array at the ideal values. -/
abbrev FV (s : Shape) (φ : FTy) := FVec Ideal s φ
/-- An array of 32-bit index words. -/
abbrev IV (s : Shape) := IVec s 32

/-- The edges' source-node indices: row 0 of the edge-index table. -/
def rowIdx (x1 : IV S2x160000) : IV S160000 :=
  shapeCast S160000 (extractStridedSlice S1x160000 ![0, 0] x1 slices_S2x160000_S1x160000_0_0) shapeCasts_S1x160000_S160000
/-- The edges' target-node indices: row 1 of the edge-index table. -/
def colIdx (x1 : IV S2x160000) : IV S160000 :=
  shapeCast S160000 (extractStridedSlice S1x160000 ![1, 0] x1 slices_S2x160000_S1x160000_1_0) shapeCasts_S1x160000_S160000
/-- A negative index counts from the end: `v + 10000` where `v < 0`, as a column of start indices. -/
def wrap (v : IV S160000) : IV S160000x1 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)
/-- The segment ids of the two segment sums: the source indices as a column. -/
def segIdx (x1 : IV S2x160000) : IV S160000x1 :=
  broadcastInDim S160000x1 ![0] bcast_S160000_S160000x1_0 (rowIdx x1)

/-- The four row blocks of the first edge weight matrix. -/
def w1a (x4 : FV S1076x256 .f32) : FV S512x256 .bf16 :=
  truncf .bf16 (extractStridedSlice S512x256 ![0, 0] x4 slices_S1076x256_S512x256_0_0) bitsLt_bf16_f32
def w1b (x4 : FV S1076x256 .f32) : FV S512x256 .bf16 :=
  truncf .bf16 (extractStridedSlice S512x256 ![512, 0] x4 slices_S1076x256_S512x256_512_0) bitsLt_bf16_f32
def w1c (x4 : FV S1076x256 .f32) : FV S51x256 .bf16 :=
  truncf .bf16 (extractStridedSlice S51x256 ![1024, 0] x4 slices_S1076x256_S51x256_1024_0) bitsLt_bf16_f32
def w1r (x4 : FV S1076x256 .f32) : FV S1x256 .bf16 :=
  truncf .bf16 (extractStridedSlice S1x256 ![1075, 0] x4 slices_S1076x256_S1x256_1075_0) bitsLt_bf16_f32
/-- A square weight matrix in the narrower format (the same numbers at the ideal values). -/
def narrow (x : FV S256x256 .f32) : FV S256x256 .bf16 := truncf .bf16 x bitsLt_bf16_f32
/-- The last coordinate weight column as a row. -/
def cw2 (x10 : FV S256x1 .f32) : FV S1x256 .f32 := shapeCast S1x256 x10 shapeCasts_S256x1_S1x256
/-- The two row blocks of the first node weight matrix. -/
def nw1a (x11 : FV S768x256 .f32) : FV S512x256 .bf16 :=
  truncf .bf16 (extractStridedSlice S512x256 ![0, 0] x11 slices_S768x256_S512x256_0_0) bitsLt_bf16_f32
def nw1b (x11 : FV S768x256 .f32) : FV S256x256 .bf16 :=
  truncf .bf16 (extractStridedSlice S256x256 ![512, 0] x11 slices_S768x256_S256x256_512_0) bitsLt_bf16_f32

/-- The projected features of every edge's source node. -/
def haRow (x0 : FV S10000x512 .f32) (x1 : IV S2x160000) (x4 : FV S1076x256 .f32) : FV S160000x256 .f32 :=
  Host.gather gather_S10000x256_S160000x1_S160000x256_1_0_n_n_0_1_1256 (proj x0 (w1a x4)) (wrap (rowIdx x1))
/-- The projected features of every edge's target node. -/
def hbCol (x0 : FV S10000x512 .f32) (x1 : IV S2x160000) (x4 : FV S1076x256 .f32) : FV S160000x256 .f32 :=
  Host.gather gather_S10000x256_S160000x1_S160000x256_1_0_n_n_0_1_1256 (proj x0 (w1b x4)) (wrap (colIdx x1))
/-- Every edge's coordinate difference. -/
def diff (x1 : IV S2x160000) (x3 : FV S10000x3 .f32) : FV S160000x3 .f32 :=
  subf (Host.gather gather_S10000x3_S160000x1_S160000x3_1_0_n_n_0_1_13 x3 (wrap (rowIdx x1)))
    (Host.gather gather_S10000x3_S160000x1_S160000x3_1_0_n_n_0_1_13 x3 (wrap (colIdx x1)))

/-- Every edge's message. -/
def eArr (x0 : FV S10000x512 .f32) (x1 : IV S2x160000) (x2 : FV S160000x51 .f32) (x3 : FV S10000x3 .f32)
    (x4 : FV S1076x256 .f32) (x5 : FV S256 .f32) (x6 : FV S256x256 .f32) (x7 : FV S256 .f32) : FV S160000x256 .f32 :=
  edgeE (haRow x0 x1 x4) (hbCol x0 x1 x4) x2 (diff x1 x3) (w1c x4) (w1r x4) x5 (narrow x6) x7
/-- Every edge's coordinate update. -/
def tArr (x0 : FV S10000x512 .f32) (x1 : IV S2x160000) (x2 : FV S160000x51 .f32) (x3 : FV S10000x3 .f32)
    (x4 : FV S1076x256 .f32) (x5 : FV S256 .f32) (x6 : FV S256x256 .f32) (x7 : FV S256 .f32)
    (x8 : FV S256x256 .f32) (x9 : FV S256 .f32) (x10 : FV S256x1 .f32) : FV S160000x3 .f32 :=
  edgeTrans (haRow x0 x1 x4) (hbCol x0 x1 x4) x2 (diff x1 x3) (w1c x4) (w1r x4) x5 (narrow x6) x7 (narrow x8) x9 (cw2 x10)

/-- The messages summed over the edges leaving each node. -/
def aggNode (x0 : FV S10000x512 .f32) (x1 : IV S2x160000) (x2 : FV S160000x51 .f32) (x3 : FV S10000x3 .f32)
    (x4 : FV S1076x256 .f32) (x5 : FV S256 .f32) (x6 : FV S256x256 .f32) (x7 : FV S256 .f32) : FV S10000x256 .f32 :=
  Host.scatterAdd scatter_S10000x256_S160000x1_S160000x256_1_0_0_1
    (broadcastInDim S10000x256 ![] bcast_S_S10000x256 (constant (F := Ideal) S_ .f32 0x00000000#32)) (segIdx x1) (eArr x0 x1 x2 x3 x4 x5 x6 x7)
/-- The coordinate updates summed over the edges leaving each node. -/
def aggCoord (x0 : FV S10000x512 .f32) (x1 : IV S2x160000) (x2 : FV S160000x51 .f32) (x3 : FV S10000x3 .f32)
    (x4 : FV S1076x256 .f32) (x5 : FV S256 .f32) (x6 : FV S256x256 .f32) (x7 : FV S256 .f32)
    (x8 : FV S256x256 .f32) (x9 : FV S256 .f32) (x10 : FV S256x1 .f32) : FV S10000x3 .f32 :=
  Host.scatterAdd scatter_S10000x3_S160000x1_S160000x3_1_0_0_1
    (broadcastInDim S10000x3 ![] bcast_S_S10000x3 (constant (F := Ideal) S_ .f32 0x00000000#32)) (segIdx x1) (tArr x0 x1 x2 x3 x4 x5 x6 x7 x8 x9 x10)

/-- The second result: the new coordinates. -/
def out1 (x0 : FV S10000x512 .f32) (x1 : IV S2x160000) (x2 : FV S160000x51 .f32) (x3 : FV S10000x3 .f32)
    (x4 : FV S1076x256 .f32) (x5 : FV S256 .f32) (x6 : FV S256x256 .f32) (x7 : FV S256 .f32)
    (x8 : FV S256x256 .f32) (x9 : FV S256 .f32) (x10 : FV S256x1 .f32) : FV S10000x3 .f32 :=
  addf x3 (aggCoord x0 x1 x2 x3 x4 x5 x6 x7 x8 x9 x10)

/-- The first result: the new node features. -/
def out0 (x0 : FV S10000x512 .f32) (x1 : IV S2x160000) (x2 : FV S160000x51 .f32) (x3 : FV S10000x3 .f32)
    (x4 : FV S1076x256 .f32) (x5 : FV S256 .f32) (x6 : FV S256x256 .f32) (x7 : FV S256 .f32)
    (x11 : FV S768x256 .f32) (x12 : FV S256 .f32) (x13 : FV S256x256 .f32) (x14 : FV S256 .f32) : FV S10000x256 .f32 :=
  node x0 (aggNode x0 x1 x2 x3 x4 x5 x6 x7) (nw1a x11) (nw1b x11) x12 (narrow x13) x14

end Cert.KernelIdeal.KT

end
-- ==== Proof.KFold.lean ====
/-
  The kernel program's two results as the closed terms of `KTerms.lean`: a walk through @main's six segments. Each
  stretch of host operations is read operation by operation (a buffer it does not write keeps its contents); each
  launch leaves its result arrays at what the launch computes (`Launches`: the hypothesis this module is stated
  under, one equation per result array, for any contents of the buffers at the launch's entry) and every other
  buffer as it found it.
-/
import proofs.«431407_j47528108097729_3_alg».proof.Proof.Gen.KernelIdeal.Frame
import proofs.«431407_j47528108097729_3_alg».proof.Proof.KTerms
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.KT Egnn

variable (m : (ℓ : Loc nD τ sig) → Buf (Elt Ideal) ℓ) (ρ : Dev nD → PrngReg) (c : Dev nD)

local macro "step_host" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- What the three launches leave in their result arrays, for any contents `V` of the buffers at a launch's entry. -/
structure Launches : Prop where
  proj_a : ∀ (V : (c : Dev nD) → (b : Ref sig .tc) → Buf (Elt Ideal) ((c : Thread nD τ).loc b)) (c : Dev nD),
    (dat0 (F := Ideal) V c).arrAt 3 cfg0.N = proj (V c main_arg0) (V c main_v8)
  proj_b : ∀ (V : (c : Dev nD) → (b : Ref sig .tc) → Buf (Elt Ideal) ((c : Thread nD τ).loc b)) (c : Dev nD),
    (dat0 (F := Ideal) V c).arrAt 4 cfg0.N = proj (V c main_arg0) (V c main_v9)
  edge_e : ∀ (V : (c : Dev nD) → (b : Ref sig .tc) → Buf (Elt Ideal) ((c : Thread nD τ).loc b)) (c : Dev nD),
    (dat1 (F := Ideal) V c).arrAt 12 cfg1.N
      = edgeE (V c main_v22) (V c main_v29) (V c main_arg2) (V c main_v44) (V c main_v10) (V c main_v11) (V c main_arg5)
          (V c main_v12) (V c main_arg7)
  edge_t : ∀ (V : (c : Dev nD) → (b : Ref sig .tc) → Buf (Elt Ideal) ((c : Thread nD τ).loc b)) (c : Dev nD),
    (dat1 (F := Ideal) V c).arrAt 13 cfg1.N
      = edgeTrans (V c main_v22) (V c main_v29) (V c main_arg2) (V c main_v44) (V c main_v10) (V c main_v11) (V c main_arg5)
          (V c main_v12) (V c main_arg7) (V c main_v13) (V c main_arg9) (V c main_v14)
  node_o : ∀ (V : (c : Dev nD) → (b : Ref sig .tc) → Buf (Elt Ideal) ((c : Thread nD τ).loc b)) (c : Dev nD),
    (dat2 (F := Ideal) V c).arrAt 7 cfg2.N
      = node (V c main_arg0) (V c main_v51) (V c main_v54) (V c main_v56) (V c main_arg12) (V c main_v57) (V c main_arg14)

/-! ## The first stretch of host operations: the index rows and the weight blocks -/

theorem W1_keep (b : Ref sig .tc)
    (hb : b ∈ [main_arg0, main_arg2, main_arg3, main_arg5, main_arg7, main_arg9, main_arg11, main_arg12, main_arg13, main_arg14]) :
    W1 m ρ c (Proc.devRef .tc b) = m ((c : Thread nD τ).loc b) := by
  show StableHlo.after hostOps0 (W0 m ρ c) (Proc.devRef .tc b) = W0 m ρ c (Proc.devRef .tc b)
  simp only [List.mem_cons, List.mem_nil_iff, or_false] at hb
  rcases hb with rfl | rfl | rfl | rfl | rfl | rfl | rfl | rfl | rfl | rfl <;> step_host

theorem W1_v1 : W1 m ρ c (Proc.devRef .tc main_v1) = rowIdx (m ((c : Thread nD τ).loc main_arg1)) := by
  show StableHlo.after hostOps0 (W0 m ρ c) (Proc.devRef .tc main_v1) = _
  after_results
  rfl
theorem W1_v3 : W1 m ρ c (Proc.devRef .tc main_v3) = colIdx (m ((c : Thread nD τ).loc main_arg1)) := by
  show StableHlo.after hostOps0 (W0 m ρ c) (Proc.devRef .tc main_v3) = _
  after_results
  rfl
theorem W1_v8 : W1 m ρ c (Proc.devRef .tc main_v8) = w1a (m ((c : Thread nD τ).loc main_arg4)) := by
  show StableHlo.after hostOps0 (W0 m ρ c) (Proc.devRef .tc main_v8) = _
  after_results
  rfl
theorem W1_v9 : W1 m ρ c (Proc.devRef .tc main_v9) = w1b (m ((c : Thread nD τ).loc main_arg4)) := by
  show StableHlo.after hostOps0 (W0 m ρ c) (Proc.devRef .tc main_v9) = _
  after_results
  rfl
theorem W1_v10 : W1 m ρ c (Proc.devRef .tc main_v10) = w1c (m ((c : Thread nD τ).loc main_arg4)) := by
  show StableHlo.after hostOps0 (W0 m ρ c) (Proc.devRef .tc main_v10) = _
  after_results
  rfl
theorem W1_v11 : W1 m ρ c (Proc.devRef .tc main_v11) = w1r (m ((c : Thread nD τ).loc main_arg4)) := by
  show StableHlo.after hostOps0 (W0 m ρ c) (Proc.devRef .tc main_v11) = _
  after_results
  rfl
theorem W1_v12 : W1 m ρ c (Proc.devRef .tc main_v12) = narrow (m ((c : Thread nD τ).loc main_arg6)) := by
  show StableHlo.after hostOps0 (W0 m ρ c) (Proc.devRef .tc main_v12) = _
  after_results
  rfl
theorem W1_v13 : W1 m ρ c (Proc.devRef .tc main_v13) = narrow (m ((c : Thread nD τ).loc main_arg8)) := by
  show StableHlo.after hostOps0 (W0 m ρ c) (Proc.devRef .tc main_v13) = _
  after_results
  rfl
theorem W1_v14 : W1 m ρ c (Proc.devRef .tc main_v14) = cw2 (m ((c : Thread nD τ).loc main_arg10)) := by
  show StableHlo.after hostOps0 (W0 m ρ c) (Proc.devRef .tc main_v14) = _
  after_results
  rfl

/-! ## The projection launch -/

theorem W2_keep (b : Ref sig .tc)
    (hb : b ∈ [main_v1, main_v3, main_arg2, main_arg3, main_v10, main_v11, main_arg5, main_v12, main_arg7, main_v13, main_arg9, main_v14,
      main_arg11, main_arg12, main_arg13, main_arg14]) :
    W2 m ρ c (Proc.devRef .tc b) = W1 m ρ c (Proc.devRef .tc b) := by
  simp only [List.mem_cons, List.mem_nil_iff, or_false] at hb
  rcases hb with rfl | rfl | rfl | rfl | rfl | rfl | rfl | rfl | rfl | rfl | rfl | rfl | rfl | rfl | rfl | rfl <;>
    exact W2_of_ne m ρ c _ (by decide)

theorem W2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_keep m ρ c main_arg0 (by decide))

variable (H : Launches)
include H

theorem W2_v15_0 : W2 m ρ c (Proc.devRef .tc main_v15_0) = proj (m ((c : Thread nD τ).loc main_arg0)) (w1a (m ((c : Thread nD τ).loc main_arg4))) := by
  refine (W2_arr m ρ c 3).trans ((H.proj_a (V1 m ρ) c).trans ?_)
  show proj (W1 m ρ c (Proc.devRef .tc main_arg0)) (W1 m ρ c (Proc.devRef .tc main_v8)) = _
  rw [W1_keep m ρ c main_arg0 (by decide), W1_v8]
theorem W2_v15_1 : W2 m ρ c (Proc.devRef .tc main_v15_1) = proj (m ((c : Thread nD τ).loc main_arg0)) (w1b (m ((c : Thread nD τ).loc main_arg4))) := by
  refine (W2_arr m ρ c 4).trans ((H.proj_b (V1 m ρ) c).trans ?_)
  show proj (W1 m ρ c (Proc.devRef .tc main_arg0)) (W1 m ρ c (Proc.devRef .tc main_v9)) = _
  rw [W1_keep m ρ c main_arg0 (by decide), W1_v9]

omit H

/-! ## The second stretch: the gathers and the coordinate differences -/

theorem W3_keep (b : Ref sig .tc)
    (hb : b ∈ [main_v1, main_arg0, main_arg2, main_arg3, main_v10, main_v11, main_arg5, main_v12, main_arg7, main_v13, main_arg9, main_v14,
      main_arg11, main_arg12, main_arg13, main_arg14]) :
    W3 m ρ c (Proc.devRef .tc b) = W2 m ρ c (Proc.devRef .tc b) := by
  show StableHlo.after hostOps1 (W2 m ρ c) (Proc.devRef .tc b) = W2 m ρ c (Proc.devRef .tc b)
  simp only [List.mem_cons, List.mem_nil_iff, or_false] at hb
  rcases hb with rfl | rfl | rfl | rfl | rfl | rfl | rfl | rfl | rfl | rfl | rfl | rfl | rfl | rfl | rfl | rfl <;> step_host

include H

set_option maxHeartbeats 4000000 in
theorem W3_v22 : W3 m ρ c (Proc.devRef .tc main_v22) = haRow (m ((c : Thread nD τ).loc main_arg0)) (m ((c : Thread nD τ).loc main_arg1)) (m ((c : Thread nD τ).loc main_arg4)) := by
  show StableHlo.after hostOps1 (W2 m ρ c) (Proc.devRef .tc main_v22) = _
  after_results_simp
  rw [W2_v15_0 m ρ c H, W2_keep m ρ c main_v1 (by decide), W1_v1]
  rfl
set_option maxHeartbeats 4000000 in
theorem W3_v29 : W3 m ρ c (Proc.devRef .tc main_v29) = hbCol (m ((c : Thread nD τ).loc main_arg0)) (m ((c : Thread nD τ).loc main_arg1)) (m ((c : Thread nD τ).loc main_arg4)) := by
  show StableHlo.after hostOps1 (W2 m ρ c) (Proc.devRef .tc main_v29) = _
  after_results_simp
  rw [W2_v15_1 m ρ c H, W2_keep m ρ c main_v3 (by decide), W1_v3]
  rfl

omit H

set_option maxHeartbeats 4000000 in
theorem W3_v44 : W3 m ρ c (Proc.devRef .tc main_v44) = diff (m ((c : Thread nD τ).loc main_arg1)) (m ((c : Thread nD τ).loc main_arg3)) := by
  show StableHlo.after hostOps1 (W2 m ρ c) (Proc.devRef .tc main_v44) = _
  after_results_simp
  rw [W2_keep m ρ c main_v1 (by decide), W2_keep m ρ c main_v3 (by decide), W2_keep m ρ c main_arg3 (by decide), W1_v1, W1_v3,
    W1_keep m ρ c main_arg3 (by decide)]
  rfl

/-! ## The edge launch -/

theorem W4_keep (b : Ref sig .tc) (hb : b ∈ [main_v1, main_arg0, main_arg3, main_arg11, main_arg12, main_arg13, main_arg14]) :
    W4 m ρ c (Proc.devRef .tc b) = W3 m ρ c (Proc.devRef .tc b) := by
  simp only [List.mem_cons, List.mem_nil_iff, or_false] at hb
  rcases hb with rfl | rfl | rfl | rfl | rfl | rfl | rfl <;> exact W4_of_ne m ρ c _ (by decide)

/-- A buffer no launch and no host operation writes before the node launch holds the argument it was launched with. -/
theorem W3_arg (b : Ref sig .tc) (hb : b ∈ [main_arg2, main_arg3, main_arg5, main_arg7, main_arg9, main_arg11, main_arg12, main_arg13, main_arg14]) :
    W3 m ρ c (Proc.devRef .tc b) = m ((c : Thread nD τ).loc b) := by
  simp only [List.mem_cons, List.mem_nil_iff, or_false] at hb
  rcases hb with rfl | rfl | rfl | rfl | rfl | rfl | rfl | rfl | rfl <;>
    exact (W3_keep m ρ c _ (by decide)).trans ((W2_keep m ρ c _ (by decide)).trans (W1_keep m ρ c _ (by decide)))

theorem W3_arg0 : W3 m ρ c (Proc.devRef .tc main_arg0) = (m ((c : Thread nD τ).loc main_arg0)) :=
  (W3_keep m ρ c main_arg0 (by decide)).trans (W2_arg0 m ρ c)
theorem W3_v1 : W3 m ρ c (Proc.devRef .tc main_v1) = rowIdx (m ((c : Thread nD τ).loc main_arg1)) :=
  (W3_keep m ρ c main_v1 (by decide)).trans ((W2_keep m ρ c main_v1 (by decide)).trans (W1_v1 m ρ c))
theorem W3_v10 : W3 m ρ c (Proc.devRef .tc main_v10) = w1c (m ((c : Thread nD τ).loc main_arg4)) :=
  (W3_keep m ρ c main_v10 (by decide)).trans ((W2_keep m ρ c main_v10 (by decide)).trans (W1_v10 m ρ c))
theorem W3_v11 : W3 m ρ c (Proc.devRef .tc main_v11) = w1r (m ((c : Thread nD τ).loc main_arg4)) :=
  (W3_keep m ρ c main_v11 (by decide)).trans ((W2_keep m ρ c main_v11 (by decide)).trans (W1_v11 m ρ c))
theorem W3_v12 : W3 m ρ c (Proc.devRef .tc main_v12) = narrow (m ((c : Thread nD τ).loc main_arg6)) :=
  (W3_keep m ρ c main_v12 (by decide)).trans ((W2_keep m ρ c main_v12 (by decide)).trans (W1_v12 m ρ c))
theorem W3_v13 : W3 m ρ c (Proc.devRef .tc main_v13) = narrow (m ((c : Thread nD τ).loc main_arg8)) :=
  (W3_keep m ρ c main_v13 (by decide)).trans ((W2_keep m ρ c main_v13 (by decide)).trans (W1_v13 m ρ c))
theorem W3_v14 : W3 m ρ c (Proc.devRef .tc main_v14) = cw2 (m ((c : Thread nD τ).loc main_arg10)) :=
  (W3_keep m ρ c main_v14 (by decide)).trans ((W2_keep m ρ c main_v14 (by decide)).trans (W1_v14 m ρ c))

include H

theorem W4_v45_0 : W4 m ρ c (Proc.devRef .tc main_v45_0)
    = eArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 12).trans ((H.edge_e (V3 m ρ) c).trans ?_)
  show edgeE (W3 m ρ c (Proc.devRef .tc main_v22)) (W3 m ρ c (Proc.devRef .tc main_v29)) (W3 m ρ c (Proc.devRef .tc main_arg2)) (W3 m ρ c (Proc.devRef .tc main_v44))
    (W3 m ρ c (Proc.devRef .tc main_v10)) (W3 m ρ c (Proc.devRef .tc main_v11)) (W3 m ρ c (Proc.devRef .tc main_arg5)) (W3 m ρ c (Proc.devRef .tc main_v12)) (W3 m ρ c (Proc.devRef .tc main_arg7)) = _
  rw [W3_v22 m ρ c H, W3_v29 m ρ c H, W3_v44, W3_v10, W3_v11, W3_v12, W3_arg m ρ c main_arg2 (by decide), W3_arg m ρ c main_arg5 (by decide),
    W3_arg m ρ c main_arg7 (by decide)]
  rfl

theorem W4_v45_1 : W4 m ρ c (Proc.devRef .tc main_v45_1)
    = tArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W4_arr m ρ c 13).trans ((H.edge_t (V3 m ρ) c).trans ?_)
  show edgeTrans (W3 m ρ c (Proc.devRef .tc main_v22)) (W3 m ρ c (Proc.devRef .tc main_v29)) (W3 m ρ c (Proc.devRef .tc main_arg2)) (W3 m ρ c (Proc.devRef .tc main_v44))
    (W3 m ρ c (Proc.devRef .tc main_v10)) (W3 m ρ c (Proc.devRef .tc main_v11)) (W3 m ρ c (Proc.devRef .tc main_arg5)) (W3 m ρ c (Proc.devRef .tc main_v12)) (W3 m ρ c (Proc.devRef .tc main_arg7))
    (W3 m ρ c (Proc.devRef .tc main_v13)) (W3 m ρ c (Proc.devRef .tc main_arg9)) (W3 m ρ c (Proc.devRef .tc main_v14)) = _
  rw [W3_v22 m ρ c H, W3_v29 m ρ c H, W3_v44, W3_v10, W3_v11, W3_v12, W3_v13, W3_v14, W3_arg m ρ c main_arg2 (by decide),
    W3_arg m ρ c main_arg5 (by decide), W3_arg m ρ c main_arg7 (by decide), W3_arg m ρ c main_arg9 (by decide)]
  rfl

omit H

/-! ## The third stretch: the two segment sums, the new coordinates, the node weights -/

theorem W4_v1 : W4 m ρ c (Proc.devRef .tc main_v1) = rowIdx (m ((c : Thread nD τ).loc main_arg1)) :=
  (W4_keep m ρ c main_v1 (by decide)).trans (W3_v1 m ρ c)
theorem W4_arg (b : Ref sig .tc) (hb : b ∈ [main_arg3, main_arg11, main_arg12, main_arg13, main_arg14]) :
    W4 m ρ c (Proc.devRef .tc b) = m ((c : Thread nD τ).loc b) := by
  simp only [List.mem_cons, List.mem_nil_iff, or_false] at hb
  rcases hb with rfl | rfl | rfl | rfl | rfl <;> exact (W4_keep m ρ c _ (by decide)).trans (W3_arg m ρ c _ (by decide))
theorem W4_arg0 : W4 m ρ c (Proc.devRef .tc main_arg0) = (m ((c : Thread nD τ).loc main_arg0)) :=
  (W4_keep m ρ c main_arg0 (by decide)).trans (W3_arg0 m ρ c)

theorem W5_keep (b : Ref sig .tc) (hb : b ∈ [main_arg0, main_arg12, main_arg14]) :
    W5 m ρ c (Proc.devRef .tc b) = W4 m ρ c (Proc.devRef .tc b) := by
  show StableHlo.after hostOps2 (W4 m ρ c) (Proc.devRef .tc b) = W4 m ρ c (Proc.devRef .tc b)
  simp only [List.mem_cons, List.mem_nil_iff, or_false] at hb
  rcases hb with rfl | rfl | rfl <;> step_host

theorem W5_v54 : W5 m ρ c (Proc.devRef .tc main_v54) = nw1a (m ((c : Thread nD τ).loc main_arg11)) := by
  show StableHlo.after hostOps2 (W4 m ρ c) (Proc.devRef .tc main_v54) = _
  after_results_simp
  rw [W4_arg m ρ c main_arg11 (by decide)]
  rfl
theorem W5_v56 : W5 m ρ c (Proc.devRef .tc main_v56) = nw1b (m ((c : Thread nD τ).loc main_arg11)) := by
  show StableHlo.after hostOps2 (W4 m ρ c) (Proc.devRef .tc main_v56) = _
  after_results_simp
  rw [W4_arg m ρ c main_arg11 (by decide)]
  rfl
theorem W5_v57 : W5 m ρ c (Proc.devRef .tc main_v57) = narrow (m ((c : Thread nD τ).loc main_arg13)) := by
  show StableHlo.after hostOps2 (W4 m ρ c) (Proc.devRef .tc main_v57) = _
  after_results_simp
  rw [W4_arg m ρ c main_arg13 (by decide)]
  rfl

include H

theorem W5_v51 : W5 m ρ c (Proc.devRef .tc main_v51)
    = aggNode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v51) = _
  after_results_simp
  rw [W4_v45_0 m ρ c H, W4_v1]
  rfl

theorem W5_v52 : W5 m ρ c (Proc.devRef .tc main_v52)
    = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  show StableHlo.after hostOps2 (W4 m ρ c) (Proc.devRef .tc main_v52) = _
  after_results_simp
  rw [W4_v45_1 m ρ c H, W4_v1, W4_arg m ρ c main_arg3 (by decide)]
  rfl

/-! ## The node launch, and the two results -/

/-- The first result: the node layer of the features and the aggregated messages. -/
theorem W6_v58 : W6 m ρ c (Proc.devRef .tc main_v58)
    = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg11)) (m ((c : Thread nD τ).loc main_arg12)) (m ((c : Thread nD τ).loc main_arg13)) (m ((c : Thread nD τ).loc main_arg14)) := by
  refine (W6_arr m ρ c 7).trans ((H.node_o (V5 m ρ) c).trans ?_)
  show node (W5 m ρ c (Proc.devRef .tc main_arg0)) (W5 m ρ c (Proc.devRef .tc main_v51)) (W5 m ρ c (Proc.devRef .tc main_v54)) (W5 m ρ c (Proc.devRef .tc main_v56))
    (W5 m ρ c (Proc.devRef .tc main_arg12)) (W5 m ρ c (Proc.devRef .tc main_v57)) (W5 m ρ c (Proc.devRef .tc main_arg14)) = _
  rw [W5_v51 m ρ c H, W5_v54, W5_v56, W5_v57, W5_keep m ρ c main_arg0 (by decide), W5_keep m ρ c main_arg12 (by decide),
    W5_keep m ρ c main_arg14 (by decide), W4_arg0, W4_arg m ρ c main_arg12 (by decide), W4_arg m ρ c main_arg14 (by decide)]
  rfl

/-- The second result: the coordinates plus the aggregated coordinate updates; the node launch does not touch it. -/
theorem W6_v52 : W6 m ρ c (Proc.devRef .tc main_v52)
    = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) :=
  (W6_of_ne m ρ c main_v52 (by decide)).trans (W5_v52 m ρ c H)

end Cert.KernelIdeal.Fold

end
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.Region0.lean ====
import proofs.«431407_j47528108097729_3_alg».proof.Proof.Gen.KernelIdeal.Frame
import proofs.«431407_j47528108097729_3_alg».proof.Proof.Spec
import proofs.«431407_j47528108097729_3_alg».proof.Proof.LibMeanAggregate
import Idealize.ShloMosaic.Lib.Pipeline.Value

set_option maxRecDepth 16384

noncomputable section

namespace Cert.KernelIdeal.Val0

open Idealize.ShloMosaic Idealize.ShloMosaic.TcCoe Idealize.SL.Sem Idealize.ShloMosaic.ValueIdx
open Cert.KernelIdeal Cert.KernelIdeal.Gen Egnn

variable (V : (c : Dev nD) → (b : Ref sig .tc) → Buf (Elt Ideal) ((c : Thread nD τ).loc b))

/-- The zero offsets, however the zeros are spelt. -/
theorem zero_offsets : (![0, 0] : Fin 2 → Nat) = fun _ => 0 := funext fun a => by fin_cases a <;> rfl

/-- The kernel's contraction is the plain rows-by-columns one. -/
theorem dot_eq_plain : dot_S2000x512_S512x256_S2000x256_1_0_0_1_n_n = DotDims.plain 2000 512 256 := rfl

/-- One matmul of a block of rows into the zero accumulator, at an index: that row of the block times the weight's column. -/
theorem pay2_apply (x0 : Vec Ideal S2000x512 .f32) (w : Vec Ideal S512x256 .bf16) (p : Fin 2000) (q : Fin 256) :
    k0_pay2 x0 w (ix2 p q) = proj x0 w (ix2 p q) := by
  unfold k0_pay2 k0_pay1
  rw [dot_eq_plain]
  rw [MeanAggregate.plain_matmul_zero_apply, proj_apply]
  refine Finset.sum_congr rfl fun k _ => ?_
  rw [truncf_apply, shapeCast_self]

theorem pay3_apply (x0 : Vec Ideal S2000x512 .f32) (w : Vec Ideal S512x256 .bf16) (p : Fin 2000) (q : Fin 256) :
    k0_pay3 x0 w (ix2 p q) = proj x0 w (ix2 p q) := by
  unfold k0_pay3 k0_pay1
  rw [dot_eq_plain]
  rw [MeanAggregate.plain_matmul_zero_apply, proj_apply]
  refine Finset.sum_congr rfl fun k _ => ?_
  rw [truncf_apply, shapeCast_self]

/-- The index maps, decided once over the grid: the row-blocked windows move with the point along the rows, the weights' windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of block `t` is a row of the array. -/
theorem rows_lt (t : Fin cfg0.N) (p : Fin 2000) : t.val * 2000 + p.val < 10000 := by
  have h1 := t.isLt
  have hN : cfg0.N = 5 := N_0
  have h2 := p.isLt
  omega

/-- Block `t` of the features is rows `2000 t … 2000 t + 1999` of the array. -/
theorem iblk0_0_apply (c : Dev nD) (t : Fin cfg0.N) (p : Fin 2000) (k : Fin 512) :
    iblk0 V c 0 t (ix2 p k) = V c main_arg0 (ix2 ⟨t.val * 2000 + p.val, rows_lt t p⟩ k) := by
  obtain ⟨e0, e1, -⟩ := idx_facts t
  show V c main_arg0 (((cfg0.win 0).blk t).view.emb (ix2 p k)) = V c main_arg0 _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 512 + 1 * k.val = k.val; rw [e1]; omega

/-- The first weight's block is the whole weight at every point. -/
theorem iblk0_1_apply (c : Dev nD) (t : Fin cfg0.N) (k : Fin 512) (q : Fin 256) :
    iblk0 V c 1 t (ix2 k q) = V c main_v8 (ix2 k q) := by
  obtain ⟨-, -, e0, e1, -⟩ := idx_facts t
  show V c main_v8 (((cfg0.win 1).blk t).view.emb (ix2 k q)) = V c main_v8 _
  congr 1
  funext a
  apply Fin.ext
  match a with
  | ⟨0, _⟩ => show win0_1.index t (0 : Fin 2) * 512 + 1 * k.val = k.val; rw [e0]; omega
  | ⟨1, _⟩ => show win0_1.index t (1 : Fin 2) * 256 + 1 * q.val = q.val; rw [e1]; omega

/-- So is the second weight's. -/
theorem iblk0_2_apply (c : Dev nD) (t : Fin cfg0.N) (k : Fin 512) (q : Fin 256) :
    iblk0 V c 2 t (ix2 k q) = V c main_v9 (ix2 k q) := by
  obtain ⟨-, -, -, -, e0, e1, -⟩ := idx_facts t
  show V c main_v9 (((cfg0.win 2).blk t).view.emb (ix2 k q)) = V c main_v9 _
  congr 1
  funext a
  apply Fin.ext
  match a with
  | ⟨0, _⟩ => show win0_2.index t (0 : Fin 2) * 512 + 1 * k.val = k.val; rw [e0]; omega
  | ⟨1, _⟩ => show win0_2.index t (1 : Fin 2) * 256 + 1 * q.val = q.val; rw [e1]; omega

/-- Element (p, q) of output block `t` sits in the array at row `2000 t + p`, column `q`: the first result's window, -/
theorem oblk3_emb (t : Fin cfg0.N) (p : Fin 2000) (q : Fin 256) :
    ((cfg0.win 3).blk t).view.emb (ix2 p q) = ix2 ⟨t.val * 2000 + p.val, rows_lt t p⟩ q := by
  obtain ⟨-, -, -, -, -, -, e0, e1, -⟩ := idx_facts t
  funext a
  apply Fin.ext
  match a with
  | ⟨0, _⟩ => show win0_3.index t (0 : Fin 2) * 2000 + 1 * p.val = t.val * 2000 + p.val; rw [e0]; omega
  | ⟨1, _⟩ => show win0_3.index t (1 : Fin 2) * 256 + 1 * q.val = q.val; rw [e1]; omega

/-- and the second's. -/
theorem oblk4_emb (t : Fin cfg0.N) (p : Fin 2000) (q : Fin 256) :
    ((cfg0.win 4).blk t).view.emb (ix2 p q) = ix2 ⟨t.val * 2000 + p.val, rows_lt t p⟩ q := by
  obtain ⟨-, -, -, -, -, -, -, -, e0, e1⟩ := idx_facts t
  funext a
  apply Fin.ext
  match a with
  | ⟨0, _⟩ => show win0_4.index t (0 : Fin 2) * 2000 + 1 * p.val = t.val * 2000 + p.val; rw [e0]; omega
  | ⟨1, _⟩ => show win0_4.index t (1 : Fin 2) * 256 + 1 * q.val = q.val; rw [e1]; omega

/-- A block of rows of the features times a weight is the same rows of the whole product. -/
theorem proj_block (c : Dev nD) (t : Fin cfg0.N) (w : Vec Ideal S512x256 .bf16) (p : Fin 2000) (q : Fin 256) :
    proj (iblk0 V c 0 t) w (ix2 p q) = proj (V c main_arg0) w (ix2 ⟨t.val * 2000 + p.val, rows_lt t p⟩ q) := by
  rw [proj_apply, proj_apply]
  refine Finset.sum_congr rfl fun k _ => ?_
  rw [iblk0_0_apply]

/-- What point `t` writes back to the first result is block `t` of the features times the first weight. -/
theorem flushed3_eq (c : Dev nD) (t : Fin cfg0.N) :
    (dat0 (F := Ideal) V c).flushed 3 t = ((cfg0.win 3).blk t).view.read (Elt Ideal) (proj (V c main_arg0) (V c main_v8)) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S512x256) zero_offsets]
  have hw : (iblk0 V c 1 t : Vec Ideal S512x256 .bf16) = V c main_v8 := by
    funext i
    obtain ⟨k, q, rfl⟩ : ∃ (k : Fin 512) (q : Fin 256), i = ix2 k q := ⟨i 0, i 1, eq_ix2 i⟩
    exact iblk0_1_apply V c t k q
  funext j
  obtain ⟨p, q, rfl⟩ : ∃ (p : Fin 2000) (q : Fin 256), j = ix2 p q := ⟨j 0, j 1, eq_ix2 j⟩
  show k0_pay2 (iblk0 V c 0 t) (iblk0 V c 1 t) (ix2 p q) = proj (V c main_arg0) (V c main_v8) (((cfg0.win 3).blk t).view.emb (ix2 p q))
  rw [pay2_apply, oblk3_emb, hw]
  exact proj_block V c t _ p q

/-- What point `t` writes back to the second result is block `t` of the features times the second weight. -/
theorem flushed4_eq (c : Dev nD) (t : Fin cfg0.N) :
    (dat0 (F := Ideal) V c).flushed 4 t = ((cfg0.win 4).blk t).view.read (Elt Ideal) (proj (V c main_arg0) (V c main_v9)) := by
  show (cfg0.win 4).cut (grid0.coords t) ((dat0 V c).after 4 t) = _
  rw [after0_4]
  unfold out0_4
  rw [View.canon_unit_zero zero_offsets]
  simp only [View.ld_unit_zero (S := S2000x512) zero_offsets, View.ld_unit_zero (S := S512x256) zero_offsets]
  have hw : (iblk0 V c 2 t : Vec Ideal S512x256 .bf16) = V c main_v9 := by
    funext i
    obtain ⟨k, q, rfl⟩ : ∃ (k : Fin 512) (q : Fin 256), i = ix2 k q := ⟨i 0, i 1, eq_ix2 i⟩
    exact iblk0_2_apply V c t k q
  funext j
  obtain ⟨p, q, rfl⟩ : ∃ (p : Fin 2000) (q : Fin 256), j = ix2 p q := ⟨j 0, j 1, eq_ix2 j⟩
  show k0_pay3 (iblk0 V c 0 t) (iblk0 V c 2 t) (ix2 p q) = proj (V c main_arg0) (V c main_v9) (((cfg0.win 4).blk t).view.emb (ix2 p q))
  rw [pay3_apply, oblk4_emb, hw]
  exact proj_block V c t _ p q

/-- An index of the first result is in point `t`'s block iff each coordinate is in the block's range on its axis. -/
theorem mem_blk3 (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v15_0).slice (win0_3.rect t)).set ↔ _
  rw [View.set_slice_whole, Rect.mem_set_unit]
  exact Iff.rfl

/-- The same for the second result. -/
theorem mem_blk4 (t : Fin cfg0.N) (i : S10000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v15_1).slice (win0_4.rect t)).set ↔ _
  rw [View.set_slice_whole, Rect.mem_set_unit]
  exact Iff.rfl

/-- Row `r` of the array lies in block `r / 2000`. -/
theorem block_of_row_lt (i : S10000x256.Idx) : (i 0).val / 2000 < cfg0.N := by
  have hi0 : (i 0).val < 10000 := (i 0).isLt
  rw [show cfg0.N = 5 from N_0]
  omega

/-- Every index of the first result is in the block of some point (which writes it back). -/
theorem cover3 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  refine ⟨⟨(i 0).val / 2000, block_of_row_lt i⟩, flush0_3 _, ?_⟩
  rw [mem_blk3]
  obtain ⟨-, -, -, -, -, -, e0, e1, -⟩ := idx_facts ⟨(i 0).val / 2000, block_of_row_lt i⟩
  intro a
  match a with
  | ⟨0, _⟩ =>
    show win0_3.index ⟨(i 0).val / 2000, block_of_row_lt i⟩ (0 : Fin 2) * 2000 ≤ (i 0).val ∧ (i 0).val < win0_3.index ⟨(i 0).val / 2000, block_of_row_lt i⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, block_of_row_lt i⟩ (1 : Fin 2) * 256 ≤ (i 1).val ∧ (i 1).val < win0_3.index ⟨(i 0).val / 2000, block_of_row_lt i⟩ (1 : Fin 2) * 256 + 256
    rw [e1]
    omega

/-- The same for the second result. -/
theorem cover4 (i : S10000x256.Idx) : ∃ t : Fin cfg0.N, (cfg0.win 4).flush t = true ∧ i ∈ ((cfg0.win 4).blk t).view.set := by
  have hi0 : (i 0).val < 10000 := (i 0).isLt
  have hi1 : (i 1).val < 256 := (i 1).isLt
  refine ⟨⟨(i 0).val / 2000, block_of_row_lt i⟩, flush0_4 _, ?_⟩
  rw [mem_blk4]
  obtain ⟨-, -, -, -, -, -, -, -, e0, e1⟩ := idx_facts ⟨(i 0).val / 2000, block_of_row_lt i⟩
  intro a
  match a with
  | ⟨0, _⟩ =>
    show win0_4.index ⟨(i 0).val / 2000, block_of_row_lt i⟩ (0 : Fin 2) * 2000 ≤ (i 0).val ∧ (i 0).val < win0_4.index ⟨(i 0).val / 2000, block_of_row_lt i⟩ (0 : Fin 2) * 2000 + 2000
    rw [e0]
    show (i 0).val / 2000 * 2000 ≤ (i 0).val ∧ (i 0).val < (i 0).val / 2000 * 2000 + 2000
    omega
  | ⟨1, _⟩ =>
    show win0_4.index ⟨(i 0).val / 2000, block_of_row_lt i⟩ (1 : Fin 2) * 256 ≤ (i 1).val ∧ (i 1).val < win0_4.index ⟨(i 0).val / 2000, block_of_row_lt i⟩ (1 : Fin 2) * 256 + 256
    rw [e1]
    omega

/-- After the projection kernel's launch its first result holds the rows of `h` times the first weight block. -/
theorem arr0_3 (c : Dev nD) :
    (dat0 (F := Ideal) V c).arrAt 3 cfg0.N = proj (V c main_arg0) (V c main_v8) :=
  (dat0 (F := Ideal) V c).arrAt_eq_of_cover 3 (proj (V c main_arg0) (V c main_v8)) (fun t _ => flushed3_eq V c t) cover3

/-- … and its second result the rows of `h` times the second weight block. -/
theorem arr0_4 (c : Dev nD) :
    (dat0 (F := Ideal) V c).arrAt 4 cfg0.N = proj (V c main_arg0) (V c main_v9) :=
  (dat0 (F := Ideal) V c).arrAt_eq_of_cover 4 (proj (V c main_arg0) (V c main_v9)) (fun t _ => flushed4_eq V c t) cover4

end Cert.KernelIdeal.Val0

end
-- ==== Proof.Region1.lean ====
/-
  The edge kernel's two results as functions of its operands, at the ideal values.

  The launch walks 100 points; point `t` reads rows `1600 t … 1600 t + 1599` of the four edge-indexed operands and the
  eight weight operands whole, and writes rows `1600 t … 1600 t + 1599` of both results. Read at row `p`, lane `q`, the
  body's arithmetic on a block is the edge message `Egnn.edgeEAt` of the block's row `p` (first result) and the
  coordinate update `Egnn.edgeTransAt` (second result): a lane sum is a sum over the row, a product into the zero
  accumulator is the sum of products over the contracted axis, a column `[a] → [a, 1] → [a, b]` repeats row `p`'s
  value over the lanes, a row `[b] → [1, b] → [a, b]` repeats lane `q`'s value over the rows, the format changes are
  the identity. A row of either result reads only the same row of the edge-indexed operands, so block `t` of the
  result of the blocks is block `t` of the result of the arrays; the blocks tile the arrays (row `r` lies in the block
  of point `r / 1600`), so after the launch each result array is that function of the operand arrays.
-/
import proofs.«431407_j47528108097729_3_alg».proof.Proof.Gen.KernelIdeal.Frame
import proofs.«431407_j47528108097729_3_alg».proof.Proof.Spec
import proofs.«431407_j47528108097729_3_alg».proof.Proof.LibMeanAggregate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Idealize.ShloMosaic Idealize.ShloMosaic.TcCoe Idealize.SL.Sem Idealize.ShloMosaic.ValueIdx
open Cert.KernelIdeal Cert.KernelIdeal.Gen Egnn

variable (V : (c : Dev nD) → (b : Ref sig .tc) → Buf (Elt Ideal) ((c : Thread nD τ).loc b))

/-! ## Layout operations read at an index: the column forms -/

section Layout
variable {α : Type}

theorem zero2 : (![0, 0] : Fin 2 → Nat) = fun _ => 0 := funext fun a => by fin_cases a <;> rfl
theorem zero1 : (![0] : Fin 1 → Nat) = fun _ => 0 := funext fun a => by fin_cases a; rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `r` with lane `k` inserted is `(r, k)`. -/
theorem lift_row {n m : ℕ} (h : (⟨2, ![n, m]⟩ : Shape).Reduces [1] ⟨1, ![n]⟩) (r : Fin n) (k : Fin m) :
    h.lift (ix1 r) k = ix2 r k :=
  funext fun c => Fin.ext (by match c with | ⟨0, _⟩ => rfl | ⟨1, _⟩ => rfl)

/-- A lane sum of an `[n, m]` array at row `r` is the sum over that row. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ k : Fin m, src (ix2 r k) := by
  refine (Ideal.multiReduction_add_single src 0x00000000#32 h hφ hacc (ix1 r)).trans ?_
  exact Finset.sum_congr rfl fun k _ => congrArg src (lift_row h r k)

end Layout

/-! ## The body's arithmetic read at an index -/

section Payloads

theorem sqrt_apply {s : Shape} (x : FVec Ideal s .f32) (i : s.Idx) : sqrt x i = Ideal.sqrt (x i) := rfl

/-- `x · σ(x)` lane by lane. -/
theorem silu_apply {s : Shape} (H : FVec Ideal s .f32) (i : s.Idx) : mulf H (logistic H) i = silu (H i) := rfl

/-- The `[1600 × 51]` by `[51 × 256]` product into the zero accumulator, at `(p, q)`. -/
theorem matmulA_apply (lhs : FVec Ideal S1600x51 .bf16) (rhs : FVec Ideal S51x256 .bf16) (p : Fin 1600) (q : Fin 256) :
    matmul dot_S1600x51_S51x256_S1600x256_1_0_0_1_n_n none lhs rhs (constant S1600x256 .f32 0x00000000#32) (ix2 p q)
      = ∑ k : Fin 51, lhs (ix2 p k) * rhs (ix2 k q) :=
  MeanAggregate.plain_matmul_zero_apply 1600 51 256 none lhs rhs p q

/-- The `[1600 × 256]` by `[256 × 256]` product into the zero accumulator, at `(p, q)`. -/
theorem matmulB_apply (lhs : FVec Ideal S1600x256 .bf16) (rhs : FVec Ideal S256x256 .bf16) (p : Fin 1600) (q : Fin 256) :
    matmul dot_S1600x256_S256x256_S1600x256_1_0_0_1_n_n none lhs rhs (constant S1600x256 .f32 0x00000000#32) (ix2 p q)
      = ∑ k : Fin 256, lhs (ix2 p k) * rhs (ix2 k q) :=
  MeanAggregate.plain_matmul_zero_apply 1600 256 256 none lhs rhs p q

/-- The coordinate differences pass through unchanged. -/
theorem pay3_eq (x3 : Vec Ideal S1600x3 .f32) : k1_pay3 x3 = x3 := by
  unfold k1_pay3
  exact shapeCast_self _ _

/-- The second bias, one row over all the rows. -/
theorem pay5_apply (x8 : Vec Ideal S256 .f32) (p : Fin 1600) (q : Fin 256) :
    k1_pay5 x8 (ix2 p q) = x8 (ix1 q) := by
  unfold k1_pay5
  rw [broadcastTo_1b_ab_apply, shapeCast_a_1a_apply]

/-- The activation of a sum, lane by lane. -/
theorem pay1_apply (a b : FVec Ideal S1600x256 .f32) (p : Fin 1600) (q : Fin 256) :
    k1_pay1 a b (ix2 p q) = silu (a (ix2 p q) + b (ix2 p q)) := rfl

/-- The second layer's product at `(p, q)`: the activated first layer of row `p` against column `q` of the weights. -/
theorem pay4_apply (x3 : Vec Ideal S1600x3 .f32) (x2 : Vec Ideal S1600x51 .f32) (x0 x1 : Vec Ideal S1600x256 .f32)
    (x4 : Vec Ideal S51x256 .bf16) (x5 : Vec Ideal S1x256 .bf16) (x6 : Vec Ideal S256 .f32) (x7 : Vec Ideal S256x256 .bf16)
    (p : Fin 1600) (q : Fin 256) :
    k1_pay4 x3 x2 x0 x1 x4 x5 x6 x7 (ix2 p q)
      = ∑ k : Fin 256, silu (edgeH1 x0 x1 x2 x3 x4 x5 x6 p k) * x7 (ix2 k q) := by
  simp only [k1_pay4]
  rw [matmulB_apply]
  refine Finset.sum_congr rfl fun k _ => ?_
  rw [truncf_apply, silu_apply]
  simp only [shapeCast_self]
  refine congrArg (fun z => silu z * x7 (ix2 k q)) ?_
  unfold edgeH1 radial
  simp only [addf_apply, mulf_apply, truncf_apply, extf_apply, broadcast_apply, shapeCast_self, pay3_eq,
    broadcastTo_1b_ab_apply, broadcastTo_a1_ab_apply, shapeCast_a_1a_apply, shapeCast_a_a1_apply, matmulA_apply,
    sqrt_apply]
  rw [rowSum_apply]
  rfl

end Payloads

section Results

variable (x0 x1 : Vec Ideal S1600x256 .f32) (x2 : Vec Ideal S1600x51 .f32) (x3 : Vec Ideal S1600x3 .f32)
  (x4 : Vec Ideal S51x256 .bf16) (x5 : Vec Ideal S1x256 .bf16) (x6 : Vec Ideal S256 .f32) (x7 : Vec Ideal S256x256 .bf16)
  (x8 : Vec Ideal S256 .f32) (x9 : Vec Ideal S256x256 .bf16) (x10 : Vec Ideal S256 .f32) (x11 : Vec Ideal S1x256 .f32)

/-- The first result at `(p, q)`: the message of edge `p`, lane `q`. -/
theorem out12_apply (p : Fin 1600) (q : Fin 256) :
    k1_pay1 (k1_pay4 x3 x2 x0 x1 x4 x5 x6 x7) (k1_pay5 x8) (ix2 p q) = edgeE x0 x1 x2 x3 x4 x5 x6 x7 x8 (ix2 p q) := by
  show _ = edgeEAt x0 x1 x2 x3 x4 x5 x6 x7 x8 p q
  unfold edgeEAt
  rw [pay1_apply, pay4_apply, pay5_apply]

/-- The coordinate weight's arithmetic over any two summands `a`, `b` of the message's pre-activation. -/
theorem pay2_apply (y3 : FVec Ideal S1600x3 .f32) (a b : FVec Ideal S1600x256 .f32) (p : Fin 1600) (d : Fin 3) :
    k1_pay2 y3 a b x9 x10 x11 (ix2 p d)
      = min hi (max lo (∑ j : Fin 256,
          silu ((∑ k : Fin 256, k1_pay1 a b (ix2 p k) * x9 (ix2 k j)) + x10 (ix1 j)) * x11 (ix2 (0 : Fin 1) j)))
        * y3 (ix2 p d) := by
  simp only [k1_pay2]
  rw [mulf_apply, broadcastTo_a1_ab_apply, minimumf_apply, maximumf_apply, broadcast_apply, broadcast_apply,
    shapeCast_a_a1_apply, rowSum_apply]
  refine congrArg (fun z => min hi (max lo z) * y3 (ix2 p d)) ?_
  refine Finset.sum_congr rfl fun j _ => ?_
  rw [mulf_apply, silu_apply, addf_apply, matmulB_apply]
  simp only [truncf_apply, shapeCast_self, broadcastTo_1b_ab_apply, shapeCast_a_1a_apply]

/-- The second result at `(p, d)`: the coordinate update of edge `p`, axis `d`. -/
theorem out13_apply (p : Fin 1600) (d : Fin 3) :
    k1_pay2 (k1_pay3 x3) (k1_pay4 x3 x2 x0 x1 x4 x5 x6 x7) (k1_pay5 x8) x9 x10 x11 (ix2 p d)
      = edgeTrans x0 x1 x2 x3 x4 x5 x6 x7 x8 x9 x10 x11 (ix2 p d) := by
  show _ = edgeTransAt x0 x1 x2 x3 x4 x5 x6 x7 x8 x9 x10 x11 p d
  unfold edgeTransAt edgeCoordAt
  rw [pay2_apply, pay3_eq]
  simp only [out12_apply]
  rfl

end Results

/-! ## The windows' blocks as rows of the arrays -/

section Blocks

/-- The printed index maps over the grid: a row-blocked window's block index is the point's number on the rows and
    zero on the columns. -/
theorem rowBlock_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_12.index t (0 : Fin 2) = t.val ∧ win1_12.index t (1 : Fin 2) = 0)
    ∧ (win1_13.index t (0 : Fin 2) = t.val ∧ win1_13.index t (1 : Fin 2) = 0) :=
  (by decide +kernel : ∀ t : Fin grid1.N, _)

/-- A whole-array window's block index is zero at every point. -/
theorem wholeBlock_index : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = 0 ∧ win1_9.index t (1 : Fin 2) = 0)
    ∧ win1_10.index t (0 : Fin 1) = 0
    ∧ (win1_11.index t (0 : Fin 2) = 0 ∧ win1_11.index t (1 : Fin 2) = 0) :=
  (by decide +kernel : ∀ t : Fin grid1.N, _)

/-- Row `p` of point `t`'s block is row `1600 t + p` of the array. -/
def rowOf (t : Fin cfg1.N) (p : Fin 1600) : Fin 160000 :=
  ⟨t.val * 1600 + p.val, by
    have h : t.val < 100 := lt_of_lt_of_eq t.isLt N_1
    have := p.isLt
    omega⟩

theorem blk0_apply (c : Dev nD) (t : Fin cfg1.N) (p : Fin 1600) (k : Fin 256) :
    (iblk1 V c 0 t : Vec Ideal S1600x256 .f32) (ix2 p k) = (V c main_v22 : Arr 160000 256) (ix2 (rowOf t p) k) := by
  obtain ⟨e0, e1⟩ := (rowBlock_index t).1
  show V c main_v22 (((cfg1.win 0).blk t).view.emb (ix2 p k)) = V c main_v22 _
  refine congrArg (V c main_v22) (funext fun a => Fin.ext ?_)
  match a with
  | ⟨0, _⟩ => show win1_0.index t (0 : Fin 2) * 1600 + 1 * p.val = t.val * 1600 + p.val; rw [e0]; omega
  | ⟨1, _⟩ => show win1_0.index t (1 : Fin 2) * 256 + 1 * k.val = k.val; rw [e1]; omega

theorem blk1_apply (c : Dev nD) (t : Fin cfg1.N) (p : Fin 1600) (k : Fin 256) :
    (iblk1 V c 1 t : Vec Ideal S1600x256 .f32) (ix2 p k) = (V c main_v29 : Arr 160000 256) (ix2 (rowOf t p) k) := by
  obtain ⟨e0, e1⟩ := (rowBlock_index t).2.1
  show V c main_v29 (((cfg1.win 1).blk t).view.emb (ix2 p k)) = V c main_v29 _
  refine congrArg (V c main_v29) (funext fun a => Fin.ext ?_)
  match a with
  | ⟨0, _⟩ => show win1_1.index t (0 : Fin 2) * 1600 + 1 * p.val = t.val * 1600 + p.val; rw [e0]; omega
  | ⟨1, _⟩ => show win1_1.index t (1 : Fin 2) * 256 + 1 * k.val = k.val; rw [e1]; omega

theorem blk2_apply (c : Dev nD) (t : Fin cfg1.N) (p : Fin 1600) (k : Fin 51) :
    (iblk1 V c 2 t : Vec Ideal S1600x51 .f32) (ix2 p k) = (V c main_arg2 : Arr 160000 51) (ix2 (rowOf t p) k) := by
  obtain ⟨e0, e1⟩ := (rowBlock_index t).2.2.1
  show V c main_arg2 (((cfg1.win 2).blk t).view.emb (ix2 p k)) = V c main_arg2 _
  refine congrArg (V c main_arg2) (funext fun a => Fin.ext ?_)
  match a with
  | ⟨0, _⟩ => show win1_2.index t (0 : Fin 2) * 1600 + 1 * p.val = t.val * 1600 + p.val; rw [e0]; omega
  | ⟨1, _⟩ => show win1_2.index t (1 : Fin 2) * 51 + 1 * k.val = k.val; rw [e1]; omega

theorem blk3_apply (c : Dev nD) (t : Fin cfg1.N) (p : Fin 1600) (k : Fin 3) :
    (iblk1 V c 3 t : Vec Ideal S1600x3 .f32) (ix2 p k) = (V c main_v44 : Arr 160000 3) (ix2 (rowOf t p) k) := by
  obtain ⟨e0, e1⟩ := (rowBlock_index t).2.2.2.1
  show V c main_v44 (((cfg1.win 3).blk t).view.emb (ix2 p k)) = V c main_v44 _
  refine congrArg (V c main_v44) (funext fun a => Fin.ext ?_)
  match a with
  | ⟨0, _⟩ => show win1_3.index t (0 : Fin 2) * 1600 + 1 * p.val = t.val * 1600 + p.val; rw [e0]; omega
  | ⟨1, _⟩ => show win1_3.index t (1 : Fin 2) * 3 + 1 * k.val = k.val; rw [e1]; omega

theorem blk4_eq (c : Dev nD) (t : Fin cfg1.N) :
    (iblk1 V c 4 t : Vec Ideal S51x256 .bf16) = V c main_v10 := by
  obtain ⟨e0, e1⟩ := (wholeBlock_index t).1
  funext j
  show V c main_v10 (((cfg1.win 4).blk t).view.emb j) = V c main_v10 j
  refine congrArg (V c main_v10) (funext fun a => Fin.ext ?_)
  match a with
  | ⟨0, _⟩ => show win1_4.index t (0 : Fin 2) * 51 + 1 * (j 0).val = (j 0).val; rw [e0]; omega
  | ⟨1, _⟩ => show win1_4.index t (1 : Fin 2) * 256 + 1 * (j 1).val = (j 1).val; rw [e1]; omega

theorem blk5_eq (c : Dev nD) (t : Fin cfg1.N) :
    (iblk1 V c 5 t : Vec Ideal S1x256 .bf16) = V c main_v11 := by
  obtain ⟨e0, e1⟩ := (wholeBlock_index t).2.1
  funext j
  show V c main_v11 (((cfg1.win 5).blk t).view.emb j) = V c main_v11 j
  refine congrArg (V c main_v11) (funext fun a => Fin.ext ?_)
  match a with
  | ⟨0, _⟩ => show win1_5.index t (0 : Fin 2) * 1 + 1 * (j 0).val = (j 0).val; rw [e0]; omega
  | ⟨1, _⟩ => show win1_5.index t (1 : Fin 2) * 256 + 1 * (j 1).val = (j 1).val; rw [e1]; omega

theorem blk6_eq (c : Dev nD) (t : Fin cfg1.N) :
    (iblk1 V c 6 t : Vec Ideal S256 .f32) = V c main_arg5 := by
  have e0 := (wholeBlock_index t).2.2.1
  funext j
  show V c main_arg5 (((cfg1.win 6).blk t).view.emb j) = V c main_arg5 j
  refine congrArg (V c main_arg5) (funext fun a => Fin.ext ?_)
  match a with
  | ⟨0, _⟩ => show win1_6.index t (0 : Fin 1) * 256 + 1 * (j 0).val = (j 0).val; rw [e0]; omega

theorem blk7_eq (c : Dev nD) (t : Fin cfg1.N) :
    (iblk1 V c 7 t : Vec Ideal S256x256 .bf16) = V c main_v12 := by
  obtain ⟨e0, e1⟩ := (wholeBlock_index t).2.2.2.1
  funext j
  show V c main_v12 (((cfg1.win 7).blk t).view.emb j) = V c main_v12 j
  refine congrArg (V c main_v12) (funext fun a => Fin.ext ?_)
  match a with
  | ⟨0, _⟩ => show win1_7.index t (0 : Fin 2) * 256 + 1 * (j 0).val = (j 0).val; rw [e0]; omega
  | ⟨1, _⟩ => show win1_7.index t (1 : Fin 2) * 256 + 1 * (j 1).val = (j 1).val; rw [e1]; omega

theorem blk8_eq (c : Dev nD) (t : Fin cfg1.N) :
    (iblk1 V c 8 t : Vec Ideal S256 .f32) = V c main_arg7 := by
  have e0 := (wholeBlock_index t).2.2.2.2.1
  funext j
  show V c main_arg7 (((cfg1.win 8).blk t).view.emb j) = V c main_arg7 j
  refine congrArg (V c main_arg7) (funext fun a => Fin.ext ?_)
  match a with
  | ⟨0, _⟩ => show win1_8.index t (0 : Fin 1) * 256 + 1 * (j 0).val = (j 0).val; rw [e0]; omega

theorem blk9_eq (c : Dev nD) (t : Fin cfg1.N) :
    (iblk1 V c 9 t : Vec Ideal S256x256 .bf16) = V c main_v13 := by
  obtain ⟨e0, e1⟩ := (wholeBlock_index t).2.2.2.2.2.1
  funext j
  show V c main_v13 (((cfg1.win 9).blk t).view.emb j) = V c main_v13 j
  refine congrArg (V c main_v13) (funext fun a => Fin.ext ?_)
  match a with
  | ⟨0, _⟩ => show win1_9.index t (0 : Fin 2) * 256 + 1 * (j 0).val = (j 0).val; rw [e0]; omega
  | ⟨1, _⟩ => show win1_9.index t (1 : Fin 2) * 256 + 1 * (j 1).val = (j 1).val; rw [e1]; omega

theorem blk10_eq (c : Dev nD) (t : Fin cfg1.N) :
    (iblk1 V c 10 t : Vec Ideal S256 .f32) = V c main_arg9 := by
  have e0 := (wholeBlock_index t).2.2.2.2.2.2.1
  funext j
  show V c main_arg9 (((cfg1.win 10).blk t).view.emb j) = V c main_arg9 j
  refine congrArg (V c main_arg9) (funext fun a => Fin.ext ?_)
  match a with
  | ⟨0, _⟩ => show win1_10.index t (0 : Fin 1) * 256 + 1 * (j 0).val = (j 0).val; rw [e0]; omega

theorem blk11_eq (c : Dev nD) (t : Fin cfg1.N) :
    (iblk1 V c 11 t : Vec Ideal S1x256 .f32) = V c main_v14 := by
  obtain ⟨e0, e1⟩ := (wholeBlock_index t).2.2.2.2.2.2.2
  funext j
  show V c main_v14 (((cfg1.win 11).blk t).view.emb j) = V c main_v14 j
  refine congrArg (V c main_v14) (funext fun a => Fin.ext ?_)
  match a with
  | ⟨0, _⟩ => show win1_11.index t (0 : Fin 2) * 1 + 1 * (j 0).val = (j 0).val; rw [e0]; omega
  | ⟨1, _⟩ => show win1_11.index t (1 : Fin 2) * 256 + 1 * (j 1).val = (j 1).val; rw [e1]; omega

/-- Where point `t`'s block of the first result sits in its array. -/
theorem emb12 (t : Fin cfg1.N) (p : Fin 1600) (q : Fin 256) :
    ((cfg1.win 12).blk t).view.emb (ix2 p q) = (ix2 (rowOf t p) q : S160000x256.Idx) := by
  obtain ⟨e0, e1⟩ := (rowBlock_index t).2.2.2.2.1
  refine funext fun a => Fin.ext ?_
  match a with
  | ⟨0, _⟩ => show win1_12.index t (0 : Fin 2) * 1600 + 1 * p.val = t.val * 1600 + p.val; rw [e0]; omega
  | ⟨1, _⟩ => show win1_12.index t (1 : Fin 2) * 256 + 1 * q.val = q.val; rw [e1]; omega

/-- Where point `t`'s block of the second result sits in its array. -/
theorem emb13 (t : Fin cfg1.N) (p : Fin 1600) (d : Fin 3) :
    ((cfg1.win 13).blk t).view.emb (ix2 p d) = (ix2 (rowOf t p) d : S160000x3.Idx) := by
  obtain ⟨e0, e1⟩ := (rowBlock_index t).2.2.2.2.2
  refine funext fun a => Fin.ext ?_
  match a with
  | ⟨0, _⟩ => show win1_13.index t (0 : Fin 2) * 1600 + 1 * p.val = t.val * 1600 + p.val; rw [e0]; omega
  | ⟨1, _⟩ => show win1_13.index t (1 : Fin 2) * 3 + 1 * d.val = d.val; rw [e1]; omega

end Blocks

/-! ## From the blocks to the arrays -/

section Arrays

/-- What point `t` writes back to the first result is block `t` of the edges' messages. -/
theorem flushed12_eq (c : Dev nD) (t : Fin cfg1.N) :
    (dat1 (F := Ideal) V c).flushed 12 t = ((cfg1.win 12).blk t).view.read (Elt Ideal)
      (edgeE (V c main_v22) (V c main_v29) (V c main_arg2) (V c main_v44) (V c main_v10) (V c main_v11) (V c main_arg5)
        (V c main_v12) (V c main_arg7)) := by
  show (cfg1.win 12).cut (grid1.coords t) ((dat1 V c).after 12 t) = _
  rw [after1_12]
  unfold out1_12
  rw [View.canon_unit_zero zero2]
  simp only [View.ld_unit_zero (S := S1600x256) zero2, View.ld_unit_zero (S := S1600x51) zero2,
    View.ld_unit_zero (S := S1600x3) zero2, View.ld_unit_zero (S := S51x256) zero2, View.ld_unit_zero (S := S1x256) zero2,
    View.ld_unit_zero (S := S256x256) zero2, View.ld_unit_zero (S := S256) zero1]
  funext j
  obtain ⟨p, q, rfl⟩ : ∃ (p : Fin 1600) (q : Fin 256), j = ix2 p q := ⟨j 0, j 1, eq_ix2 j⟩
  refine (out12_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  rw [blk4_eq, blk5_eq, blk6_eq, blk7_eq, blk8_eq]
  show _ = edgeE (V c main_v22) (V c main_v29) (V c main_arg2) (V c main_v44) (V c main_v10) (V c main_v11) (V c main_arg5)
    (V c main_v12) (V c main_arg7) (((cfg1.win 12).blk t).view.emb (ix2 p q))
  rw [emb12]
  exact edgeE_row_congr _ _ _ _ _ _ _ _ _ _ _ _ _ p (rowOf t p) (blk0_apply V c t p) (blk1_apply V c t p)
    (blk2_apply V c t p) (blk3_apply V c t p) q

/-- What point `t` writes back to the second result is block `t` of the edges' coordinate updates. -/
theorem flushed13_eq (c : Dev nD) (t : Fin cfg1.N) :
    (dat1 (F := Ideal) V c).flushed 13 t = ((cfg1.win 13).blk t).view.read (Elt Ideal)
      (edgeTrans (V c main_v22) (V c main_v29) (V c main_arg2) (V c main_v44) (V c main_v10) (V c main_v11) (V c main_arg5)
        (V c main_v12) (V c main_arg7) (V c main_v13) (V c main_arg9) (V c main_v14)) := by
  show (cfg1.win 13).cut (grid1.coords t) ((dat1 V c).after 13 t) = _
  rw [after1_13]
  unfold out1_13
  rw [View.canon_unit_zero zero2]
  simp only [View.ld_unit_zero (S := S1600x256) zero2, View.ld_unit_zero (S := S1600x51) zero2,
    View.ld_unit_zero (S := S1600x3) zero2, View.ld_unit_zero (S := S51x256) zero2, View.ld_unit_zero (S := S1x256) zero2,
    View.ld_unit_zero (S := S256x256) zero2, View.ld_unit_zero (S := S256) zero1]
  funext j
  obtain ⟨p, d, rfl⟩ : ∃ (p : Fin 1600) (d : Fin 3), j = ix2 p d := ⟨j 0, j 1, eq_ix2 j⟩
  refine (out13_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) p d).trans ?_
  rw [blk4_eq, blk5_eq, blk6_eq, blk7_eq, blk8_eq, blk9_eq, blk10_eq, blk11_eq]
  show _ = edgeTrans (V c main_v22) (V c main_v29) (V c main_arg2) (V c main_v44) (V c main_v10) (V c main_v11) (V c main_arg5)
    (V c main_v12) (V c main_arg7) (V c main_v13) (V c main_arg9) (V c main_v14) (((cfg1.win 13).blk t).view.emb (ix2 p d))
  rw [emb13]
  exact edgeTrans_row_congr _ _ _ _ _ _ _ _ _ _ _ _ _ _ _ _ p (rowOf t p) (blk0_apply V c t p) (blk1_apply V c t p)
    (blk2_apply V c t p) (blk3_apply V c t p) d

/-- An index of the first result's array is in point `t`'s block iff each coordinate is in the block's range on its axis. -/
theorem mem_rows12 (t : Fin cfg1.N) (i : S160000x256.Idx) :
    i ∈ ((cfg1.win 12).blk t).view.set ↔ ∀ a : Fin 2, win1_12.index t a * S1600x256.size a ≤ (i a).val
      ∧ (i a).val < win1_12.index t a * S1600x256.size a + S1600x256.size a := by
  show i ∈ ((View.whole main_v45_0).slice (win1_12.rect t)).set ↔ _
  rw [View.set_slice_whole, Rect.mem_set_unit]
  exact Iff.rfl

theorem mem_rows13 (t : Fin cfg1.N) (i : S160000x3.Idx) :
    i ∈ ((cfg1.win 13).blk t).view.set ↔ ∀ a : Fin 2, win1_13.index t a * S1600x3.size a ≤ (i a).val
      ∧ (i a).val < win1_13.index t a * S1600x3.size a + S1600x3.size a := by
  show i ∈ ((View.whole main_v45_1).slice (win1_13.rect t)).set ↔ _
  rw [View.set_slice_whole, Rect.mem_set_unit]
  exact Iff.rfl

/-- Row `r` of the first result lies in the block of point `r / 1600`. -/
theorem cover12 (i : S160000x256.Idx) :
    ∃ t : Fin cfg1.N, (cfg1.win 12).flush t = true ∧ i ∈ ((cfg1.win 12).blk t).view.set := by
  have hi0 : (i 0).val < 160000 := (i 0).isLt
  have hi1 : (i 1).val < 256 := (i 1).isLt
  obtain ⟨t, ht⟩ : ∃ t : Fin cfg1.N, t.val = (i 0).val / 1600 :=
    ⟨⟨(i 0).val / 1600, lt_of_lt_of_eq (by omega : (i 0).val / 1600 < 100) N_1.symm⟩, rfl⟩
  obtain ⟨e0, e1⟩ := (rowBlock_index t).2.2.2.2.1
  refine ⟨t, flush1_12 t, ?_⟩
  rw [mem_rows12]
  intro a
  match a with
  | ⟨0, _⟩ =>
    show win1_12.index t (0 : Fin 2) * 1600 ≤ (i 0).val ∧ (i 0).val < win1_12.index t (0 : Fin 2) * 1600 + 1600
    rw [e0, ht]; omega
  | ⟨1, _⟩ =>
    show win1_12.index t (1 : Fin 2) * 256 ≤ (i 1).val ∧ (i 1).val < win1_12.index t (1 : Fin 2) * 256 + 256
    rw [e1]; omega

/-- Row `r` of the second result lies in the block of point `r / 1600`. -/
theorem cover13 (i : S160000x3.Idx) :
    ∃ t : Fin cfg1.N, (cfg1.win 13).flush t = true ∧ i ∈ ((cfg1.win 13).blk t).view.set := by
  have hi0 : (i 0).val < 160000 := (i 0).isLt
  have hi1 : (i 1).val < 3 := (i 1).isLt
  obtain ⟨t, ht⟩ : ∃ t : Fin cfg1.N, t.val = (i 0).val / 1600 :=
    ⟨⟨(i 0).val / 1600, lt_of_lt_of_eq (by omega : (i 0).val / 1600 < 100) N_1.symm⟩, rfl⟩
  obtain ⟨e0, e1⟩ := (rowBlock_index t).2.2.2.2.2
  refine ⟨t, flush1_13 t, ?_⟩
  rw [mem_rows13]
  intro a
  match a with
  | ⟨0, _⟩ =>
    show win1_13.index t (0 : Fin 2) * 1600 ≤ (i 0).val ∧ (i 0).val < win1_13.index t (0 : Fin 2) * 1600 + 1600
    rw [e0, ht]; omega
  | ⟨1, _⟩ =>
    show win1_13.index t (1 : Fin 2) * 3 ≤ (i 1).val ∧ (i 1).val < win1_13.index t (1 : Fin 2) * 3 + 3
    rw [e1]; omega

end Arrays

/-- After the edge kernel's launch its first result holds every edge's message. -/
theorem arr1_12 (c : Dev nD) :
    (dat1 (F := Ideal) V c).arrAt 12 cfg1.N
      = edgeE (V c main_v22) (V c main_v29) (V c main_arg2) (V c main_v44) (V c main_v10) (V c main_v11) (V c main_arg5)
          (V c main_v12) (V c main_arg7) :=
  (dat1 (F := Ideal) V c).arrAt_eq_of_cover 12 _ (fun t _ => flushed12_eq V c t) cover12

/-- … and its second result every edge's coordinate update. -/
theorem arr1_13 (c : Dev nD) :
    (dat1 (F := Ideal) V c).arrAt 13 cfg1.N
      = edgeTrans (V c main_v22) (V c main_v29) (V c main_arg2) (V c main_v44) (V c main_v10) (V c main_v11) (V c main_arg5)
          (V c main_v12) (V c main_arg7) (V c main_v13) (V c main_arg9) (V c main_v14) :=
  (dat1 (F := Ideal) V c).arrAt_eq_of_cover 13 _ (fun t _ => flushed13_eq V c t) cover13

end Cert.KernelIdeal.Val1

end
-- ==== Proof.Region2.lean ====
import proofs.«431407_j47528108097729_3_alg».proof.Proof.Gen.KernelIdeal.Frame
import proofs.«431407_j47528108097729_3_alg».proof.Proof.Spec
import proofs.«431407_j47528108097729_3_alg».proof.Proof.LibMeanAggregate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Idealize.ShloMosaic Idealize.ShloMosaic.TcCoe Idealize.SL.Sem Idealize.ShloMosaic.ValueIdx
open Cert.KernelIdeal Cert.KernelIdeal.Gen Egnn

variable (V : (c : Dev nD) → (b : Ref sig .tc) → Buf (Elt Ideal) ((c : Thread nD τ).loc b))

/-! ## The body's arithmetic, entry by entry

At the ideal values a change of float format is the identity, a cast to the same shape is the identity, and a product
into the zero accumulator is the plain sum over the contracted axis. So at row p, column q the body computes

    n1_k  = (Σ_j h(p, j) · N₁ₐ(j, k) + Σ_j ag(p, j) · N₁ᵦ(j, k)) + n₁_k
    out   = Σ_k silu(n1_k) · N₂(k, q) + n₂_q

of its blocks, which is the node function of those blocks at (p, q). -/

/-- The [2000 × 512] by [512 × 256] product into the zero accumulator, at (p, q). -/
theorem matmul512_apply (a : FVec Ideal S2000x512 .bf16) (b : FVec Ideal S512x256 .bf16) (p : Fin 2000) (q : Fin 256) :
    matmul dot_S2000x512_S512x256_S2000x256_1_0_0_1_n_n none a b (constant S2000x256 .f32 0x00000000#32) (ix2 p q)
      = ∑ k : Fin 512, a (ix2 p k) * b (ix2 k q) :=
  MeanAggregate.plain_matmul_zero_apply 2000 512 256 none a b p q

/-- The [2000 × 256] by [256 × 256] product into the zero accumulator, at (p, q). -/
theorem matmul256_apply (a : FVec Ideal S2000x256 .bf16) (b : FVec Ideal S256x256 .bf16) (p : Fin 2000) (q : Fin 256) :
    matmul dot_S2000x256_S256x256_S2000x256_1_0_0_1_n_n none a b (constant S2000x256 .f32 0x00000000#32) (ix2 p q)
      = ∑ k : Fin 256, a (ix2 p k) * b (ix2 k q) :=
  MeanAggregate.plain_matmul_zero_apply 2000 256 256 none a b p q

/-- A bias vector [256] viewed [1 × 256] and repeated down 2000 rows reads, at (p, q), its entry q. -/
theorem bias_apply (b : FVec Ideal S256 .f32) (p : Fin 2000) (q : Fin 256) :
    broadcastTo S2000x256 (shapeCast S1x256 b shapeCasts_S256_S1x256) broadcasts_S1x256_S2000x256 (ix2 p q) = b (ix1 q) := by
  rw [broadcastTo_1b_ab_apply]
  refine (shapeCast_addUnit_apply ![256] b shapeCasts_S256_S1x256 (ix2 (0 : Fin 1) q)).trans ?_
  congr 1
  funext a
  match a with
  | ⟨0, _⟩ => rfl

/-- The body's arithmetic at row p, column q of its blocks is the node function of those blocks. -/
theorem body_apply (x0 : Vec Ideal S2000x512 .f32) (x1 : Vec Ideal S2000x256 .f32) (x2 : Vec Ideal S512x256 .bf16)
    (x3 : Vec Ideal S256x256 .bf16) (x4 : Vec Ideal S256 .f32) (x5 : Vec Ideal S256x256 .bf16) (x6 : Vec Ideal S256 .f32)
    (p : Fin 2000) (q : Fin 256) :
    k2_pay1 (F := Ideal) x0 x1 x2 x3 x4 x5 x6 (ix2 p q) = node x0 x1 x2 x3 x4 x5 x6 (ix2 p q) := by
  show _ = nodeAt x0 x1 x2 x3 x4 x5 x6 p q
  unfold k2_pay1 nodeAt nodeH1 silu
  simp only [addf_apply, mulf_apply, truncf_apply, bias_apply, matmul256_apply, matmul512_apply, shapeCast_self, logistic,
    Ideal.logistic_def]

/-! ## Where each block sits in its array

The grid has 5 points. At point t the features, the aggregated messages and the result are read and written in rows
t · 2000 … t · 2000 + 1999 of their arrays, all columns; the weights and biases are read whole. -/

theorem zero2 : (![0, 0] : Fin 2 → Nat) = fun _ => 0 := funext fun a => by fin_cases a <;> rfl
theorem zero1 : (![0] : Fin 1 → Nat) = fun _ => 0 := funext fun a => by fin_cases a <;> rfl

/-- The block index of every window at every point: the row-blocked windows sit at block row t, block column 0; the
    whole-array windows at block 0. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_5.index t (0 : Fin 2) = 0 ∧ win2_5.index t (1 : Fin 2) = 0
    ∧ win2_4.index t (0 : Fin 1) = 0 ∧ win2_6.index t (0 : Fin 1) = 0 :=
  (by decide +kernel : ∀ t : Fin grid2.N, _)

/-- Row p of block t is a row of the array: t · 2000 + p < 10000. -/
theorem row_lt (t : Fin cfg2.N) (p : Fin 2000) : t.val * 2000 + p.val < 10000 := by
  have h1 := t.isLt
  have hN : cfg2.N = 5 := N_2
  have h2 := p.isLt
  omega

/-- Row p, column k of the features' block at point t is row t · 2000 + p of the array. -/
theorem features_block_apply (c : Dev nD) (t : Fin cfg2.N) (p : Fin 2000) (k : Fin 512) :
    iblk2 V c 0 t (ix2 p k) = V c main_arg0 (ix2 (⟨t.val * 2000 + p.val, row_lt t p⟩ : Fin 10000) k) := by
  show V c main_arg0 (((cfg2.win 0).blk t).view.emb (ix2 p k))
    = V c main_arg0 (ix2 (⟨t.val * 2000 + p.val, row_lt t p⟩ : Fin 10000) k)
  congr 1
  funext a
  apply Fin.ext
  obtain ⟨e0, e1, -⟩ := block_index t
  match a with
  | ⟨0, _⟩ => show win2_0.index t (0 : Fin 2) * 2000 + 1 * p.val = t.val * 2000 + p.val; omega
  | ⟨1, _⟩ => show win2_0.index t (1 : Fin 2) * 512 + 1 * k.val = k.val; omega

/-- Row p, column k of the aggregated messages' block at point t is row t · 2000 + p of the array. -/
theorem messages_block_apply (c : Dev nD) (t : Fin cfg2.N) (p : Fin 2000) (k : Fin 256) :
    iblk2 V c 1 t (ix2 p k) = V c main_v51 (ix2 (⟨t.val * 2000 + p.val, row_lt t p⟩ : Fin 10000) k) := by
  show V c main_v51 (((cfg2.win 1).blk t).view.emb (ix2 p k))
    = V c main_v51 (ix2 (⟨t.val * 2000 + p.val, row_lt t p⟩ : Fin 10000) k)
  congr 1
  funext a
  apply Fin.ext
  obtain ⟨-, -, e0, e1, -⟩ := block_index t
  match a with
  | ⟨0, _⟩ => show win2_1.index t (0 : Fin 2) * 2000 + 1 * p.val = t.val * 2000 + p.val; omega
  | ⟨1, _⟩ => show win2_1.index t (1 : Fin 2) * 256 + 1 * k.val = k.val; omega

/-- The first layer's weights on the features are read whole at every point. -/
theorem w1a_block_eq (c : Dev nD) (t : Fin cfg2.N) : (iblk2 V c 2 t : Arr 512 256) = V c main_v54 := by
  funext j
  obtain ⟨a, b, rfl⟩ : ∃ (a : Fin 512) (b : Fin 256), j = ix2 a b := ⟨j 0, j 1, eq_ix2 j⟩
  show V c main_v54 (((cfg2.win 2).blk t).view.emb (ix2 a b)) = V c main_v54 (ix2 a b)
  congr 1
  funext d
  apply Fin.ext
  obtain ⟨-, -, -, -, -, -, e0, e1, -⟩ := block_index t
  match d with
  | ⟨0, _⟩ => show win2_2.index t (0 : Fin 2) * 512 + 1 * a.val = a.val; omega
  | ⟨1, _⟩ => show win2_2.index t (1 : Fin 2) * 256 + 1 * b.val = b.val; omega

/-- The first layer's weights on the aggregated messages are read whole at every point. -/
theorem w1b_block_eq (c : Dev nD) (t : Fin cfg2.N) : (iblk2 V c 3 t : Arr 256 256) = V c main_v56 := by
  funext j
  obtain ⟨a, b, rfl⟩ : ∃ (a : Fin 256) (b : Fin 256), j = ix2 a b := ⟨j 0, j 1, eq_ix2 j⟩
  show V c main_v56 (((cfg2.win 3).blk t).view.emb (ix2 a b)) = V c main_v56 (ix2 a b)
  congr 1
  funext d
  apply Fin.ext
  obtain ⟨-, -, -, -, -, -, -, -, e0, e1, -⟩ := block_index t
  match d with
  | ⟨0, _⟩ => show win2_3.index t (0 : Fin 2) * 256 + 1 * a.val = a.val; omega
  | ⟨1, _⟩ => show win2_3.index t (1 : Fin 2) * 256 + 1 * b.val = b.val; omega

/-- The first layer's bias is read whole at every point. -/
theorem b1_block_eq (c : Dev nD) (t : Fin cfg2.N) : (iblk2 V c 4 t : Arr1 256) = V c main_arg12 := by
  funext j
  obtain ⟨a, rfl⟩ : ∃ (a : Fin 256), j = ix1 a := ⟨j 0, eq_ix1 j⟩
  show V c main_arg12 (((cfg2.win 4).blk t).view.emb (ix1 a)) = V c main_arg12 (ix1 a)
  congr 1
  funext d
  apply Fin.ext
  obtain ⟨-, -, -, -, -, -, -, -, -, -, -, -, e0, -⟩ := block_index t
  match d with
  | ⟨0, _⟩ => show win2_4.index t (0 : Fin 1) * 256 + 1 * a.val = a.val; omega

/-- The second layer's weights are read whole at every point. -/
theorem w2_block_eq (c : Dev nD) (t : Fin cfg2.N) : (iblk2 V c 5 t : Arr 256 256) = V c main_v57 := by
  funext j
  obtain ⟨a, b, rfl⟩ : ∃ (a : Fin 256) (b : Fin 256), j = ix2 a b := ⟨j 0, j 1, eq_ix2 j⟩
  show V c main_v57 (((cfg2.win 5).blk t).view.emb (ix2 a b)) = V c main_v57 (ix2 a b)
  congr 1
  funext d
  apply Fin.ext
  obtain ⟨-, -, -, -, -, -, -, -, -, -, e0, e1, -⟩ := block_index t
  match d with
  | ⟨0, _⟩ => show win2_5.index t (0 : Fin 2) * 256 + 1 * a.val = a.val; omega
  | ⟨1, _⟩ => show win2_5.index t (1 : Fin 2) * 256 + 1 * b.val = b.val; omega

/-- The second layer's bias is read whole at every point. -/
theorem b2_block_eq (c : Dev nD) (t : Fin cfg2.N) : (iblk2 V c 6 t : Arr1 256) = V c main_arg14 := by
  funext j
  obtain ⟨a, rfl⟩ : ∃ (a : Fin 256), j = ix1 a := ⟨j 0, eq_ix1 j⟩
  show V c main_arg14 (((cfg2.win 6).blk t).view.emb (ix1 a)) = V c main_arg14 (ix1 a)
  congr 1
  funext d
  apply Fin.ext
  obtain ⟨-, -, -, -, -, -, -, -, -, -, -, -, -, e0⟩ := block_index t
  match d with
  | ⟨0, _⟩ => show win2_6.index t (0 : Fin 1) * 256 + 1 * a.val = a.val; omega

/-- Row p, column q of the result's block at point t sits at row t · 2000 + p, column q of the array. -/
theorem result_block_emb (t : Fin cfg2.N) (p : Fin 2000) (q : Fin 256) :
    ((cfg2.win 7).blk t).view.emb (ix2 p q) = (ix2 (⟨t.val * 2000 + p.val, row_lt t p⟩ : Fin 10000) q : S10000x256.Idx) := by
  funext a
  apply Fin.ext
  obtain ⟨-, -, -, -, e0, e1, -⟩ := block_index t
  match a with
  | ⟨0, _⟩ => show win2_7.index t (0 : Fin 2) * 2000 + 1 * p.val = t.val * 2000 + p.val; omega
  | ⟨1, _⟩ => show win2_7.index t (1 : Fin 2) * 256 + 1 * q.val = q.val; omega

/-! ## From blocks to the array

A node's new features read only that node's rows, so block t of the node function of the arrays is the node function
of the blocks at point t; and every row r of the array lies in the block of point r / 2000. -/

/-- What point t writes back is block t of the node function of the arrays as the region finds them. -/
theorem written_back_eq (c : Dev nD) (t : Fin cfg2.N) :
    (dat2 V c).flushed 7 t = ((cfg2.win 7).blk t).view.read (Elt Ideal)
      (node (V c main_arg0) (V c main_v51) (V c main_v54) (V c main_v56) (V c main_arg12) (V c main_v57) (V c main_arg14)) := by
  show (cfg2.win 7).cut (grid2.coords t) ((dat2 V c).after 7 t) = _
  rw [after2_7]
  unfold out2_7
  rw [View.canon_unit_zero zero2]
  simp only [View.ld_unit_zero (S := S2000x512) zero2, View.ld_unit_zero (S := S2000x256) zero2,
    View.ld_unit_zero (S := S512x256) zero2, View.ld_unit_zero (S := S256x256) zero2, View.ld_unit_zero (S := S256) zero1]
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t)
      (iblk2 V c 6 t) (ix2 p q)
    = node (V c main_arg0) (V c main_v51) (V c main_v54) (V c main_v56) (V c main_arg12) (V c main_v57) (V c main_arg14)
        (((cfg2.win 7).blk t).view.emb (ix2 p q))
  refine (body_apply (iblk2 V c 0 t) (iblk2 V c 1 t) (iblk2 V c 2 t) (iblk2 V c 3 t) (iblk2 V c 4 t) (iblk2 V c 5 t)
    (iblk2 V c 6 t) p q).trans ?_
  rw [result_block_emb t p q, w1a_block_eq, w1b_block_eq, b1_block_eq, w2_block_eq, b2_block_eq]
  exact node_row_congr _ _ _ _ _ _ _ _ _ p (⟨t.val * 2000 + p.val, row_lt t p⟩ : Fin 10000)
    (fun k => features_block_apply V c t p k) (fun k => messages_block_apply V c t p k) q

/-- An index of the result's array is in point t's block iff each coordinate is in the block's range on its axis. -/
theorem mem_result_block (t : Fin cfg2.N) (i : S10000x256.Idx) :
    i ∈ ((cfg2.win 7).blk t).view.set ↔ ∀ a : Fin 2, win2_7.index t a * S2000x256.size a ≤ (i a).val
      ∧ (i a).val < win2_7.index t a * S2000x256.size a + S2000x256.size a := by
  show i ∈ ((View.whole main_v58).slice (win2_7.rect t)).set ↔ _
  rw [View.set_slice_whole, Rect.mem_set_unit]
  exact Iff.rfl

/-- Row r of the result's array lies in the block that point r / 2000 writes back. -/
theorem rows_covered (i : S10000x256.Idx) :
    ∃ t : Fin cfg2.N, (cfg2.win 7).flush t = true ∧ i ∈ ((cfg2.win 7).blk t).view.set := by
  have hi0 : (i 0).val < 10000 := (i 0).isLt
  have hi1 : (i 1).val < 256 := (i 1).isLt
  have hN : cfg2.N = 5 := N_2
  have ht : (i 0).val / 2000 < cfg2.N := by rw [hN]; omega
  refine ⟨⟨(i 0).val / 2000, ht⟩, flush2_7 _, ?_⟩
  rw [mem_result_block]
  obtain ⟨-, -, -, -, e0, e1, -⟩ := block_index ⟨(i 0).val / 2000, ht⟩
  intro a
  match a with
  | ⟨0, _⟩ =>
    show win2_7.index ⟨(i 0).val / 2000, ht⟩ (0 : Fin 2) * 2000 ≤ (i 0).val
      ∧ (i 0).val < win2_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_7.index ⟨(i 0).val / 2000, ht⟩ (1 : Fin 2) * 256 ≤ (i 1).val
      ∧ (i 1).val < win2_7.index ⟨(i 0).val / 2000, ht⟩ (1 : Fin 2) * 256 + 256
    rw [e1]
    omega

/-- After the node kernel's launch its result holds every node's new features. -/
theorem arr2_7 (c : Dev nD) :
    (dat2 (F := Ideal) V c).arrAt 7 cfg2.N
      = node (V c main_arg0) (V c main_v51) (V c main_v54) (V c main_v56) (V c main_arg12) (V c main_v57) (V c main_arg14) :=
  (dat2 V c).arrAt_eq_of_cover 7 _ (fun t _ => written_back_eq V c t) rows_covered

end Cert.KernelIdeal.Val2

end
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.RefEdge.lean ====
import proofs.«431407_j47528108097729_3_alg».proof.Proof.RefReadP
import proofs.«431407_j47528108097729_3_alg».proof.Proof.KTerms
import proofs.«431407_j47528108097729_3_alg».proof.Proof.LibGatherRow
import proofs.«431407_j47528108097729_3_alg».proof.Proof.LibMeanAggregate
import Idealize.ShloMosaic.Lib.ValueIdx
import Idealize.ShloMosaic.Lib.Pipeline.Value
import Idealize.ShloMosaic.PureOps.Ideal.Laws

set_option maxRecDepth 16384

noncomputable section

open scoped BigOperators

namespace Cert.Bridge.Edge

open Idealize.ShloMosaic Idealize.ShloMosaic.ValueIdx Egnn
open Cert.ReferenceIdeal.ReadP
open Cert.KernelIdeal (KT.haRow KT.hbCol KT.diff KT.wrap KT.rowIdx KT.colIdx KT.w1a KT.w1b KT.w1c KT.w1r KT.narrow KT.cw2)

/-! ## Sums and words -/

/-- A sum over 1076 = 512 + 512 + 51 + 1 columns, block by block. -/
theorem sum_split4 {M : Type} [AddCommMonoid M] (f : Fin 1076 → M) :
    ∑ k, f k = ((∑ k : Fin 512, f ⟨k.val, by omega⟩ + ∑ k : Fin 512, f ⟨512 + k.val, by omega⟩)
      + ∑ k : Fin 51, f ⟨1024 + k.val, by omega⟩) + f ⟨1075, by omega⟩ := by
  have h1 := Fin.sum_univ_add (a := 1075) (b := 1) f
  have h2 := Fin.sum_univ_add (a := 1024) (b := 51) fun i : Fin 1075 => f (Fin.castAdd 1 i)
  have h3 := Fin.sum_univ_add (a := 512) (b := 512) fun i : Fin 1024 => f (Fin.castAdd 1 (Fin.castAdd 51 i))
  rw [h1, h2, h3, Fin.sum_univ_one]
  rfl

/-- The word 0x3F800000 is the number 1. -/
theorem one_word : Ideal.ofBits .f32 0x3F800000#32 = 1 := IdealRules.sign_bit.ideal_onePat .f32

/-- x · (1 / (1 + exp (−x))), as the reference spells it, is silu x. -/
theorem silu_host (x : EReal) :
    FloatOps.mulf (F := Ideal) (φ := .f32) x (FloatOps.hostDivf (FloatOps.ofBits .f32 0x3F800000#32)
      (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = silu x
  rw [one_word]; rfl

/-- The row a start index names: read signed and clamped into the 10000 rows. -/
def crow (idx : IVec ⟨2, ![160000, 1]⟩ 32) (r : Fin 160000) : Fin 10000 :=
  ⟨min (idx (ix2 r (0 : Fin 1))).toInt.toNat (10000 - 1), by omega⟩

variable (x0 : FVec Ideal Cert.ReferenceIdeal.S10000x512 .f32) (x1 : IVec Cert.ReferenceIdeal.S2x160000 32) (x2 : FVec Ideal Cert.ReferenceIdeal.S160000x51 .f32)
  (x3 : FVec Ideal Cert.ReferenceIdeal.S10000x3 .f32) (x4 : FVec Ideal Cert.ReferenceIdeal.S1076x256 .f32) (x5 : FVec Ideal Cert.ReferenceIdeal.S256 .f32)
  (x6 : FVec Ideal Cert.ReferenceIdeal.S256x256 .f32) (x7 : FVec Ideal Cert.ReferenceIdeal.S256 .f32) (x8 : FVec Ideal Cert.ReferenceIdeal.S256x256 .f32)
  (x9 : FVec Ideal Cert.ReferenceIdeal.S256 .f32) (x10 : FVec Ideal Cert.ReferenceIdeal.S256x1 .f32)

/-! ## The operand indices of the reference's four products, by coordinates -/

theorem lidx40 (r : Fin 160000) (j : Fin 256) (k : Fin 1076) : lidx_main_v40 (ix2 r j) k = ix2 r k :=
  funext fun a => Fin.ext (by match a with | ⟨0, _⟩ => rfl | ⟨1, _⟩ => rfl)
theorem ridx40 (r : Fin 160000) (j : Fin 256) (k : Fin 1076) : ridx_main_v40 (ix2 r j) k = ix2 k j :=
  funext fun a => Fin.ext (by match a with | ⟨0, _⟩ => rfl | ⟨1, _⟩ => rfl)
theorem lidx45 (r : Fin 160000) (j : Fin 256) (k : Fin 256) : lidx_main_v45 (ix2 r j) k = ix2 r k :=
  funext fun a => Fin.ext (by match a with | ⟨0, _⟩ => rfl | ⟨1, _⟩ => rfl)
theorem ridx45 (r : Fin 160000) (j : Fin 256) (k : Fin 256) : ridx_main_v45 (ix2 r j) k = ix2 k j :=
  funext fun a => Fin.ext (by match a with | ⟨0, _⟩ => rfl | ⟨1, _⟩ => rfl)
theorem lidx50 (r : Fin 160000) (j : Fin 256) (k : Fin 256) : lidx_main_v50 (ix2 r j) k = ix2 r k :=
  funext fun a => Fin.ext (by match a with | ⟨0, _⟩ => rfl | ⟨1, _⟩ => rfl)
theorem ridx50 (r : Fin 160000) (j : Fin 256) (k : Fin 256) : ridx_main_v50 (ix2 r j) k = ix2 k j :=
  funext fun a => Fin.ext (by match a with | ⟨0, _⟩ => rfl | ⟨1, _⟩ => rfl)
theorem lidx55 (r : Fin 160000) (k : Fin 256) : lidx_main_v55 (ix2 r (0 : Fin 1)) k = ix2 r k :=
  funext fun a => Fin.ext (by match a with | ⟨0, _⟩ => rfl | ⟨1, _⟩ => rfl)
theorem ridx55 (r : Fin 160000) (k : Fin 256) : ridx_main_v55 (ix2 r (0 : Fin 1)) k = ix2 k (0 : Fin 1) :=
  funext fun a => Fin.ext (by match a with | ⟨0, _⟩ => rfl | ⟨1, _⟩ => rfl)

/-! ## The bias rows -/

theorem v42_at (r : Fin 160000) (j : Fin 256) : val_main_v42 (F := Ideal) x5 (ix2 r j) = x5 (ix1 j) := by
  rw [val_main_v42_apply, val_main_v41_apply]
  exact congrArg x5 (funext fun a => Fin.ext (by match a with | ⟨0, _⟩ => rfl))
theorem v47_at (r : Fin 160000) (j : Fin 256) : val_main_v47 (F := Ideal) x7 (ix2 r j) = x7 (ix1 j) := by
  rw [val_main_v47_apply, val_main_v46_apply]
  exact congrArg x7 (funext fun a => Fin.ext (by match a with | ⟨0, _⟩ => rfl))
theorem v52_at (r : Fin 160000) (j : Fin 256) : val_main_v52 (F := Ideal) x9 (ix2 r j) = x9 (ix1 j) := by
  rw [val_main_v52_apply, val_main_v51_apply]
  exact congrArg x9 (funext fun a => Fin.ext (by match a with | ⟨0, _⟩ => rfl))

/-! ## The four products as sums over coordinates -/

theorem v40_at (r : Fin 160000) (j : Fin 256) :
    val_main_v40 (F := Ideal) x0 x1 x2 x3 x4 (ix2 r j)
      = ∑ k : Fin 1076, val_main_v39 (F := Ideal) x0 x1 x2 x3 (ix2 r k) * x4 (ix2 k j) := by
  rw [val_main_v40_apply]
  refine Finset.sum_congr rfl fun k _ => ?_
  rw [lidx40, ridx40]

/-! ## The wrapped index columns and the coordinate difference are the same host terms on both sides -/

theorem v30_eq : val_main_v30 (F := Ideal) x1 = KT.wrap (KT.rowIdx x1) := rfl
theorem v37_eq : val_main_v37 (F := Ideal) x1 = KT.wrap (KT.colIdx x1) := rfl
theorem v18_eq : val_main_v18 (F := Ideal) x1 x3 = KT.diff x1 x3 := rfl

/-! ## The row gathers -/

theorem v31_at (r : Fin 160000) (k : Fin 512) :
    val_main_v31 (F := Ideal) x0 x1 (ix2 r k) = x0 (ix2 (crow (KT.wrap (KT.rowIdx x1)) r) k) := by
  unfold val_main_v31
  rw [v30_eq]
  exact GatherRow.gather_rowTake_apply (by decide) _ rfl rfl rfl rfl rfl rfl rfl x0 _ r k
theorem v38_at (r : Fin 160000) (k : Fin 512) :
    val_main_v38 (F := Ideal) x0 x1 (ix2 r k) = x0 (ix2 (crow (KT.wrap (KT.colIdx x1)) r) k) := by
  unfold val_main_v38
  rw [v37_eq]
  exact GatherRow.gather_rowTake_apply (by decide) _ rfl rfl rfl rfl rfl rfl rfl x0 _ r k

/-! ## The four row blocks of the first weight matrix -/

theorem w1a_at (k : Fin 512) (j : Fin 256) : KT.w1a x4 (ix2 k j) = x4 (ix2 (⟨k.val, by omega⟩ : Fin 1076) j) := by
  unfold KT.w1a
  rw [truncf_apply]
  exact extractStridedSlice_apply ![0, 0] x4 _ (ix2 k j) (ix2 (⟨k.val, by omega⟩ : Fin 1076) j) (fun a => match a with
    | ⟨0, _⟩ => by show k.val = 0 + k.val; omega
    | ⟨1, _⟩ => by show j.val = 0 + j.val; omega)
theorem w1b_at (k : Fin 512) (j : Fin 256) : KT.w1b x4 (ix2 k j) = x4 (ix2 (⟨512 + k.val, by omega⟩ : Fin 1076) j) := by
  unfold KT.w1b
  rw [truncf_apply]
  exact extractStridedSlice_apply ![512, 0] x4 _ (ix2 k j) (ix2 (⟨512 + k.val, by omega⟩ : Fin 1076) j) (fun a => match a with
    | ⟨0, _⟩ => by show 512 + k.val = 512 + k.val; rfl
    | ⟨1, _⟩ => by show j.val = 0 + j.val; omega)
theorem w1c_at (k : Fin 51) (j : Fin 256) : KT.w1c x4 (ix2 k j) = x4 (ix2 (⟨1024 + k.val, by omega⟩ : Fin 1076) j) := by
  unfold KT.w1c
  rw [truncf_apply]
  exact extractStridedSlice_apply ![1024, 0] x4 _ (ix2 k j) (ix2 (⟨1024 + k.val, by omega⟩ : Fin 1076) j) (fun a => match a with
    | ⟨0, _⟩ => by show 1024 + k.val = 1024 + k.val; rfl
    | ⟨1, _⟩ => by show j.val = 0 + j.val; omega)
theorem w1r_at (j : Fin 256) : KT.w1r x4 (ix2 (0 : Fin 1) j) = x4 (ix2 (⟨1075, by omega⟩ : Fin 1076) j) := by
  unfold KT.w1r
  rw [truncf_apply]
  exact extractStridedSlice_apply ![1075, 0] x4 _ (ix2 (0 : Fin 1) j) (ix2 (⟨1075, by omega⟩ : Fin 1076) j) (fun a => match a with
    | ⟨0, _⟩ => by show 1075 = 1075 + 0; rfl
    | ⟨1, _⟩ => by show j.val = 0 + j.val; omega)

/-! ## The gathered projections: a row gather of h · W reads the clamped row of h · W -/

theorem haRow_at (r : Fin 160000) (j : Fin 256) :
    KT.haRow x0 x1 x4 (ix2 r j)
      = ∑ k : Fin 512, x0 (ix2 (crow (KT.wrap (KT.rowIdx x1)) r) k) * x4 (ix2 (⟨k.val, by omega⟩ : Fin 1076) j) := by
  unfold KT.haRow
  rw [GatherRow.gather_rowTake_apply (by decide) _ rfl rfl rfl rfl rfl rfl rfl, proj_apply]
  refine Finset.sum_congr rfl fun k _ => ?_
  rw [w1a_at]
  rfl
theorem hbCol_at (r : Fin 160000) (j : Fin 256) :
    KT.hbCol x0 x1 x4 (ix2 r j)
      = ∑ k : Fin 512, x0 (ix2 (crow (KT.wrap (KT.colIdx x1)) r) k) * x4 (ix2 (⟨512 + k.val, by omega⟩ : Fin 1076) j) := by
  unfold KT.hbCol
  rw [GatherRow.gather_rowTake_apply (by decide) _ rfl rfl rfl rfl rfl rfl rfl, proj_apply]
  refine Finset.sum_congr rfl fun k _ => ?_
  rw [w1b_at]
  rfl

/-! ## The four column blocks of the concatenated edge input -/

theorem v39_a (r : Fin 160000) (k : Fin 512) :
    val_main_v39 (F := Ideal) x0 x1 x2 x3 (ix2 r (⟨k.val, by omega⟩ : Fin 1076)) = val_main_v31 (F := Ideal) x0 x1 (ix2 r k) := by
  unfold val_main_v39
  exact concatenate_apply_piece (t := Cert.ReferenceIdeal.S160000x1076) 1 _ _ (ix2 r (⟨k.val, by omega⟩ : Fin 1076)) 0 (by simp)
    Cert.ReferenceIdeal.S160000x512 _ rfl rfl 0 rfl (ix2 r k)
    (fun b hb => by
      match b with
      | ⟨0, _⟩ => rfl
      | ⟨1, _⟩ => exact absurd rfl hb)
    (by show 0 + k.val = k.val; omega)
theorem v39_b (r : Fin 160000) (k : Fin 512) :
    val_main_v39 (F := Ideal) x0 x1 x2 x3 (ix2 r (⟨512 + k.val, by omega⟩ : Fin 1076)) = val_main_v38 (F := Ideal) x0 x1 (ix2 r k) := by
  unfold val_main_v39
  exact concatenate_apply_piece (t := Cert.ReferenceIdeal.S160000x1076) 1 _ _ (ix2 r (⟨512 + k.val, by omega⟩ : Fin 1076)) 1 (by simp)
    Cert.ReferenceIdeal.S160000x512 _ rfl rfl 512 rfl (ix2 r k)
    (fun b hb => by
      match b with
      | ⟨0, _⟩ => rfl
      | ⟨1, _⟩ => exact absurd rfl hb)
    (by show 512 + k.val = 512 + k.val; rfl)
theorem v39_c (r : Fin 160000) (k : Fin 51) :
    val_main_v39 (F := Ideal) x0 x1 x2 x3 (ix2 r (⟨1024 + k.val, by omega⟩ : Fin 1076)) = x2 (ix2 r k) := by
  unfold val_main_v39
  exact concatenate_apply_piece (t := Cert.ReferenceIdeal.S160000x1076) 1 _ _ (ix2 r (⟨1024 + k.val, by omega⟩ : Fin 1076)) 2 (by simp)
    Cert.ReferenceIdeal.S160000x51 _ rfl rfl 1024 rfl (ix2 r k)
    (fun b hb => by
      match b with
      | ⟨0, _⟩ => rfl
      | ⟨1, _⟩ => exact absurd rfl hb)
    (by show 1024 + k.val = 1024 + k.val; rfl)
theorem v39_d (r : Fin 160000) :
    val_main_v39 (F := Ideal) x0 x1 x2 x3 (ix2 r (⟨1075, by omega⟩ : Fin 1076)) = val_main_v24 (F := Ideal) x1 x3 (ix2 r (0 : Fin 1)) := by
  unfold val_main_v39
  exact concatenate_apply_piece (t := Cert.ReferenceIdeal.S160000x1076) 1 _ _ (ix2 r (⟨1075, by omega⟩ : Fin 1076)) 3 (by simp)
    Cert.ReferenceIdeal.S160000x1 _ rfl rfl 1075 rfl (ix2 r (0 : Fin 1))
    (fun b hb => by
      match b with
      | ⟨0, _⟩ => rfl
      | ⟨1, _⟩ => exact absurd rfl hb)
    (by show 1075 + 0 = 1075; rfl)

/-! ## The edge's length -/

theorem idx21 (r : Fin 160000) : idx_main_v21 (ix2 r (0 : Fin 1)) = ix1 r :=
  funext fun a => Fin.ext (by match a with | ⟨0, _⟩ => rfl)
theorem idx20 (r : Fin 160000) (k : Fin 3) : idx_main_v20 (ix1 r) k = ix2 r k :=
  funext fun a => Fin.ext (by match a with | ⟨0, _⟩ => rfl | ⟨1, _⟩ => rfl)

theorem v24_at (r : Fin 160000) :
    val_main_v24 (F := Ideal) x1 x3 (ix2 r (0 : Fin 1)) = radial (KT.diff x1 x3) r := by
  rw [← v18_eq, val_main_v24_apply, val_main_v22_apply, val_main_v21_apply, idx21, val_main_v20_apply, val_main_v23_apply,
    val_main_cst_3_apply, val_main_cst_apply]
  unfold radial eps
  simp only [Ideal.addf_def, Ideal.hostUnary_sqrt_def, Ideal.ofBits_def, Ideal.ofBits_zero_f32, zero_add]
  refine congrArg (fun s => Ideal.sqrt s + Ideal.ofBits .f32 0x322BCC77#32) (Finset.sum_congr rfl fun k _ => ?_)
  rw [idx20, val_main_v19_apply]
  rfl

/-! ## The first layer: the sum over 1076 columns, block by block -/

theorem blockA (r : Fin 160000) (j : Fin 256) :
    ∑ k : Fin 512, val_main_v39 (F := Ideal) x0 x1 x2 x3 (ix2 r (⟨k.val, by omega⟩ : Fin 1076)) * x4 (ix2 (⟨k.val, by omega⟩ : Fin 1076) j)
      = KT.haRow x0 x1 x4 (ix2 r j) := by
  rw [haRow_at]
  refine Finset.sum_congr rfl fun k _ => ?_
  rw [v39_a, v31_at]
theorem blockB (r : Fin 160000) (j : Fin 256) :
    ∑ k : Fin 512, val_main_v39 (F := Ideal) x0 x1 x2 x3 (ix2 r (⟨512 + k.val, by omega⟩ : Fin 1076)) * x4 (ix2 (⟨512 + k.val, by omega⟩ : Fin 1076) j)
      = KT.hbCol x0 x1 x4 (ix2 r j) := by
  rw [hbCol_at]
  refine Finset.sum_congr rfl fun k _ => ?_
  rw [v39_b, v38_at]
theorem blockC (r : Fin 160000) (j : Fin 256) :
    ∑ k : Fin 51, val_main_v39 (F := Ideal) x0 x1 x2 x3 (ix2 r (⟨1024 + k.val, by omega⟩ : Fin 1076)) * x4 (ix2 (⟨1024 + k.val, by omega⟩ : Fin 1076) j)
      = ∑ k : Fin 51, x2 (ix2 r k) * KT.w1c x4 (ix2 k j) := by
  refine Finset.sum_congr rfl fun k _ => ?_
  rw [v39_c, w1c_at]
theorem blockD (r : Fin 160000) (j : Fin 256) :
    val_main_v39 (F := Ideal) x0 x1 x2 x3 (ix2 r (⟨1075, by omega⟩ : Fin 1076)) * x4 (ix2 (⟨1075, by omega⟩ : Fin 1076) j)
      = radial (KT.diff x1 x3) r * KT.w1r x4 (ix2 (0 : Fin 1) j) := by
  rw [v39_d, v24_at, w1r_at]

theorem h1_at (r : Fin 160000) (j : Fin 256) :
    val_main_v43 (F := Ideal) x0 x1 x2 x3 x4 x5 (ix2 r j)
      = edgeH1 (KT.haRow x0 x1 x4) (KT.hbCol x0 x1 x4) x2 (KT.diff x1 x3) (KT.w1c x4) (KT.w1r x4) x5 r j := by
  rw [val_main_v43_apply, v40_at, v42_at, sum_split4, blockA, blockB, blockC, blockD]
  rfl

/-! ## The first activation and the second layer: the edge's message -/

theorem v44_at (r : Fin 160000) (j : Fin 256) :
    val_main_v44 (F := Ideal) x0 x1 x2 x3 x4 x5 (ix2 r j)
      = silu (edgeH1 (KT.haRow x0 x1 x4) (KT.hbCol x0 x1 x4) x2 (KT.diff x1 x3) (KT.w1c x4) (KT.w1r x4) x5 r j) := by
  rw [val_main_v44_apply, val_main_call0_v5_apply, val_main_call0_v4_apply, val_main_call0_cst_0_apply,
    val_main_call0_v3_apply, val_main_call0_v2_apply, val_main_call0_cst_apply, val_main_call0_v1_apply,
    val_main_call0_v0_apply, h1_at]
  exact silu_host _

theorem v48_at (r : Fin 160000) (j : Fin 256) :
    val_main_v48 (F := Ideal) x0 x1 x2 x3 x4 x5 x6 x7 (ix2 r j)
      = (∑ k : Fin 256, silu (edgeH1 (KT.haRow x0 x1 x4) (KT.hbCol x0 x1 x4) x2 (KT.diff x1 x3) (KT.w1c x4) (KT.w1r x4) x5 r k)
          * KT.narrow x6 (ix2 k j)) + x7 (ix1 j) := by
  rw [val_main_v48_apply, val_main_v45_apply, v47_at, Ideal.addf_def]
  refine congrArg (fun s => s + x7 (ix1 j)) (Finset.sum_congr rfl fun k _ => ?_)
  rw [lidx45, ridx45, v44_at]
  rfl

theorem e_at (r : Fin 160000) (j : Fin 256) :
    val_main_v49 (F := Ideal) x0 x1 x2 x3 x4 x5 x6 x7 (ix2 r j)
      = edgeEAt (KT.haRow x0 x1 x4) (KT.hbCol x0 x1 x4) x2 (KT.diff x1 x3) (KT.w1c x4) (KT.w1r x4) x5 (KT.narrow x6) x7 r j := by
  rw [val_main_v49_apply, val_main_call1_v5_apply, val_main_call1_v4_apply, val_main_call1_cst_0_apply,
    val_main_call1_v3_apply, val_main_call1_v2_apply, val_main_call1_cst_apply, val_main_call1_v1_apply,
    val_main_call1_v0_apply, v48_at]
  exact silu_host _

/-! ## The coordinate weight and the coordinate update -/

theorem v53_at (r : Fin 160000) (j : Fin 256) :
    val_main_v53 (F := Ideal) x0 x1 x2 x3 x4 x5 x6 x7 x8 x9 (ix2 r j)
      = (∑ k : Fin 256, edgeEAt (KT.haRow x0 x1 x4) (KT.hbCol x0 x1 x4) x2 (KT.diff x1 x3) (KT.w1c x4) (KT.w1r x4) x5 (KT.narrow x6) x7 r k
          * KT.narrow x8 (ix2 k j)) + x9 (ix1 j) := by
  rw [val_main_v53_apply, val_main_v50_apply, v52_at, Ideal.addf_def]
  refine congrArg (fun s => s + x9 (ix1 j)) (Finset.sum_congr rfl fun k _ => ?_)
  rw [lidx50, ridx50, e_at]
  rfl

theorem v54_at (r : Fin 160000) (j : Fin 256) :
    val_main_v54 (F := Ideal) x0 x1 x2 x3 x4 x5 x6 x7 x8 x9 (ix2 r j)
      = silu ((∑ k : Fin 256, edgeEAt (KT.haRow x0 x1 x4) (KT.hbCol x0 x1 x4) x2 (KT.diff x1 x3) (KT.w1c x4) (KT.w1r x4) x5 (KT.narrow x6) x7 r k
          * KT.narrow x8 (ix2 k j)) + x9 (ix1 j)) := by
  rw [val_main_v54_apply, val_main_call2_v5_apply, val_main_call2_v4_apply, val_main_call2_cst_0_apply,
    val_main_call2_v3_apply, val_main_call2_v2_apply, val_main_call2_cst_apply, val_main_call2_v1_apply,
    val_main_call2_v0_apply, v53_at]
  exact silu_host _

/-- The last weight column read as a row. -/
theorem cw2_at (j : Fin 256) : KT.cw2 x10 (ix2 (0 : Fin 1) j) = x10 (ix2 j (0 : Fin 1)) := by
  unfold KT.cw2
  exact shapeCast_apply x10 _ (ix2 (0 : Fin 1) j) (ix2 j (0 : Fin 1))
    (by rewrite [Shape.rowMajor_val_two, Shape.rowMajor_val_two]; show j.val * 1 + 0 = 0 * 256 + j.val; omega)

theorem v55_at (r : Fin 160000) :
    val_main_v55 (F := Ideal) x0 x1 x2 x3 x4 x5 x6 x7 x8 x9 x10 (ix2 r (0 : Fin 1))
      = ∑ j : Fin 256, silu ((∑ k : Fin 256, edgeEAt (KT.haRow x0 x1 x4) (KT.hbCol x0 x1 x4) x2 (KT.diff x1 x3) (KT.w1c x4) (KT.w1r x4) x5 (KT.narrow x6) x7 r k
          * KT.narrow x8 (ix2 k j)) + x9 (ix1 j)) * KT.cw2 x10 (ix2 (0 : Fin 1) j) := by
  rw [val_main_v55_apply]
  refine Finset.sum_congr rfl fun j _ => ?_
  rw [lidx55, ridx55, v54_at, cw2_at]

theorem v56_at (r : Fin 160000) :
    val_main_v56 (F := Ideal) x0 x1 x2 x3 x4 x5 x6 x7 x8 x9 x10 (ix2 r (0 : Fin 1))
      = edgeCoordAt (KT.haRow x0 x1 x4) (KT.hbCol x0 x1 x4) x2 (KT.diff x1 x3) (KT.w1c x4) (KT.w1r x4) x5 (KT.narrow x6) x7
          (KT.narrow x8) x9 (KT.cw2 x10) r := by
  rw [val_main_v56_apply, val_main_call3_v4_apply, val_main_call3_v3_apply, val_main_cst_9_apply,
    val_main_call3_v2_apply, val_main_call3_v1_apply, val_main_call3_v0_apply, val_main_cst_8_apply, v55_at]
  rfl

theorem idx57 (r : Fin 160000) (d : Fin 3) : idx_main_v57 (ix2 r d) = ix2 r (0 : Fin 1) :=
  funext fun a => Fin.ext (by match a with | ⟨0, _⟩ => rfl | ⟨1, _⟩ => rfl)

theorem t_at (r : Fin 160000) (d : Fin 3) :
    val_main_v58 (F := Ideal) x0 x1 x2 x3 x4 x5 x6 x7 x8 x9 x10 (ix2 r d)
      = edgeTransAt (KT.haRow x0 x1 x4) (KT.hbCol x0 x1 x4) x2 (KT.diff x1 x3) (KT.w1c x4) (KT.w1r x4) x5 (KT.narrow x6) x7
          (KT.narrow x8) x9 (KT.cw2 x10) r d := by
  rw [val_main_v58_apply, val_main_v57_apply, idx57, v56_at, v18_eq]
  rfl

/-- The reference's edge messages — the whole 1076-wide first layer on the concatenated edge input — are the edge layer
    of the gathered per-node projections: the first layer's sum over the 1076 columns splits into the four column
    blocks, and a row gather commutes with a product on the right. -/
theorem ref_e :
    val_main_v49 (F := Ideal) x0 x1 x2 x3 x4 x5 x6 x7 = Cert.KernelIdeal.KT.eArr x0 x1 x2 x3 x4 x5 x6 x7 := by
  funext i
  obtain ⟨r, j, rfl⟩ : ∃ (r : Fin 160000) (j : Fin 256), i = ix2 r j := ⟨i 0, i 1, eq_ix2 i⟩
  exact e_at x0 x1 x2 x3 x4 x5 x6 x7 r j

/-- The reference's coordinate updates are the edge layer's. -/
theorem ref_t :
    val_main_v58 (F := Ideal) x0 x1 x2 x3 x4 x5 x6 x7 x8 x9 x10 = Cert.KernelIdeal.KT.tArr x0 x1 x2 x3 x4 x5 x6 x7 x8 x9 x10 := by
  funext i
  obtain ⟨r, d, rfl⟩ : ∃ (r : Fin 160000) (d : Fin 3), i = ix2 r d := ⟨i 0, i 1, eq_ix2 i⟩
  exact t_at x0 x1 x2 x3 x4 x5 x6 x7 x8 x9 x10 r d

end Cert.Bridge.Edge

end
-- ==== Proof.RefNode.lean ====
import proofs.«431407_j47528108097729_3_alg».proof.Proof.RefReadP
import proofs.«431407_j47528108097729_3_alg».proof.Proof.KTerms
import proofs.«431407_j47528108097729_3_alg».proof.Proof.LibGatherRow
import proofs.«431407_j47528108097729_3_alg».proof.Proof.LibMeanAggregate
import Idealize.ShloMosaic.Lib.ValueIdx
import Idealize.ShloMosaic.Lib.Pipeline.Value
import Idealize.ShloMosaic.Lib.IdealHost
import Idealize.ShloMosaic.PureOps.Ideal.Laws
import Mathlib.Algebra.BigOperators.Fin

set_option maxRecDepth 16384

noncomputable section

open scoped BigOperators

namespace Cert.Bridge.Node

open Idealize.ShloMosaic Idealize.ShloMosaic.ValueIdx Egnn
open Cert.ReferenceIdeal.ReadP

/-! ## The activation -/

/-- The reference spells the activation as x · (1 / (1 + exp (−x))), the two ones given by their float word; the word
    reads as the extended real 1, and 1 / (1 + exp (−x)) is the logistic function by its definition. -/
theorem silu_host (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = x * Ideal.logistic x
  rw [Ideal.ofBits_one_f32]
  rfl

/-! ## A sum over the 768 joined columns -/

/-- A sum of 768 = 512 + 256 terms is the sum of its first 512 terms plus the sum of its last 256. -/
theorem sum_768 (f : Fin 768 → EReal) :
    ∑ k : Fin 768, f k = ∑ k : Fin 512, f ⟨k.val, by omega⟩ + ∑ k : Fin 256, f ⟨512 + k.val, by omega⟩ := by
  show ∑ k : Fin (512 + 256), f k = _
  rw [Fin.sum_univ_add]
  rfl

/-- For cat = [h | ag] joined along the columns,
    Σ_{k<768} cat(r,k) · W(k,j) = Σ_{k<512} h(r,k) · W(k,j) + Σ_{k<256} ag(r,k) · W(512+k,j). -/
theorem cat_sum {n : Nat} (h : Arr n 512) (ag : Arr n 256) (c : Arr n 768) (w : Arr 768 256) (r : Fin n) (j : Fin 256)
    (hc : ∀ k : Fin 768, c (ix2 r k) = if hk : k.val < 512 then h (ix2 r ⟨k.val, hk⟩) else ag (ix2 r ⟨k.val - 512, by omega⟩)) :
    ∑ k : Fin 768, c (ix2 r k) * w (ix2 k j)
      = ∑ k : Fin 512, h (ix2 r k) * w (ix2 (⟨k.val, by omega⟩ : Fin 768) j)
        + ∑ k : Fin 256, ag (ix2 r k) * w (ix2 (⟨512 + k.val, by omega⟩ : Fin 768) j) := by
  rw [sum_768]
  congr 1
  · refine Finset.sum_congr rfl fun k _ => ?_
    rw [hc, dif_pos (show (⟨k.val, by omega⟩ : Fin 768).val < 512 from k.isLt)]
  · refine Finset.sum_congr rfl fun k _ => ?_
    rw [hc, dif_neg (show ¬ (⟨512 + k.val, by omega⟩ : Fin 768).val < 512 from by show ¬ 512 + k.val < 512; omega)]
    congr 3
    exact Fin.ext (by show 512 + k.val - 512 = k.val; omega)

/-! ## The two row blocks of the first node weight matrix -/

/-- The first 512 rows of a [768 × 256] matrix, narrowed (the identity at the ideal values), read at (k, j). -/
theorem rows_lo_apply (x : FVec Ideal ⟨2, ![768, 256]⟩ .f32)
    (hs : (⟨2, ![768, 256]⟩ : Shape).Slices ![0, 0] ⟨2, ![512, 256]⟩) (hlt : FTy.bf16.bits < FTy.f32.bits)
    (k : Fin 512) (j : Fin 256) :
    (truncf .bf16 (extractStridedSlice ⟨2, ![512, 256]⟩ ![0, 0] x hs) hlt : FVec Ideal ⟨2, ![512, 256]⟩ .bf16) (ix2 k j)
      = x (ix2 (⟨k.val, by omega⟩ : Fin 768) j) := by
  rw [truncf_apply]
  exact extractStridedSlice_apply ![0, 0] x hs (ix2 k j) (ix2 (⟨k.val, by omega⟩ : Fin 768) j) (fun a => by
    match a with
    | ⟨0, _⟩ => show k.val = 0 + k.val; omega
    | ⟨1, _⟩ => show j.val = 0 + j.val; omega)

/-- The last 256 rows of a [768 × 256] matrix, narrowed, read at (k, j). -/
theorem rows_hi_apply (x : FVec Ideal ⟨2, ![768, 256]⟩ .f32)
    (hs : (⟨2, ![768, 256]⟩ : Shape).Slices ![512, 0] ⟨2, ![256, 256]⟩) (hlt : FTy.bf16.bits < FTy.f32.bits)
    (k : Fin 256) (j : Fin 256) :
    (truncf .bf16 (extractStridedSlice ⟨2, ![256, 256]⟩ ![512, 0] x hs) hlt : FVec Ideal ⟨2, ![256, 256]⟩ .bf16) (ix2 k j)
      = x (ix2 (⟨512 + k.val, by omega⟩ : Fin 768) j) := by
  rw [truncf_apply]
  exact extractStridedSlice_apply ![512, 0] x hs (ix2 k j) (ix2 (⟨512 + k.val, by omega⟩ : Fin 768) j) (fun a => by
    match a with
    | ⟨0, _⟩ => show 512 + k.val = 512 + k.val; rfl
    | ⟨1, _⟩ => show j.val = 0 + j.val; omega)

theorem nw1a_apply (x11 : FVec Ideal ⟨2, ![768, 256]⟩ .f32) (k : Fin 512) (j : Fin 256) :
    Cert.KernelIdeal.KT.nw1a x11 (ix2 k j) = x11 (ix2 (⟨k.val, by omega⟩ : Fin 768) j) :=
  rows_lo_apply x11 _ _ k j

theorem nw1b_apply (x11 : FVec Ideal ⟨2, ![768, 256]⟩ .f32) (k : Fin 256) (j : Fin 256) :
    Cert.KernelIdeal.KT.nw1b x11 (ix2 k j) = x11 (ix2 (⟨512 + k.val, by omega⟩ : Fin 768) j) :=
  rows_hi_apply x11 _ _ k j

/-! ## The reference's index functions at (r, j) -/

theorem lidx67 (r : Fin 10000) (j : Fin 256) (k : Fin 768) : lidx_main_v67 (ix2 r j) k = ix2 r k :=
  funext fun a => Fin.ext (by match a with | ⟨0, _⟩ => rfl | ⟨1, _⟩ => rfl)
theorem ridx67 (r : Fin 10000) (j : Fin 256) (k : Fin 768) : ridx_main_v67 (ix2 r j) k = ix2 k j :=
  funext fun a => Fin.ext (by match a with | ⟨0, _⟩ => rfl | ⟨1, _⟩ => rfl)
theorem lidx72 (r : Fin 10000) (j : Fin 256) (k : Fin 256) : lidx_main_v72 (ix2 r j) k = ix2 r k :=
  funext fun a => Fin.ext (by match a with | ⟨0, _⟩ => rfl | ⟨1, _⟩ => rfl)
theorem ridx72 (r : Fin 10000) (j : Fin 256) (k : Fin 256) : ridx_main_v72 (ix2 r j) k = ix2 k j :=
  funext fun a => Fin.ext (by match a with | ⟨0, _⟩ => rfl | ⟨1, _⟩ => rfl)
theorem idx6869 (r : Fin 10000) (j : Fin 256) : idx_main_v68 (idx_main_v69 (ix2 r j)) = ix1 j :=
  funext fun a => Fin.ext (by match a with | ⟨0, _⟩ => rfl)
theorem idx7374 (r : Fin 10000) (j : Fin 256) : idx_main_v73 (idx_main_v74 (ix2 r j)) = ix1 j :=
  funext fun a => Fin.ext (by match a with | ⟨0, _⟩ => rfl)

variable (x0 : FVec Ideal Cert.ReferenceIdeal.S10000x512 .f32) (x1 : IVec Cert.ReferenceIdeal.S2x160000 32) (x2 : FVec Ideal Cert.ReferenceIdeal.S160000x51 .f32)
  (x3 : FVec Ideal Cert.ReferenceIdeal.S10000x3 .f32) (x4 : FVec Ideal Cert.ReferenceIdeal.S1076x256 .f32) (x5 : FVec Ideal Cert.ReferenceIdeal.S256 .f32)
  (x6 : FVec Ideal Cert.ReferenceIdeal.S256x256 .f32) (x7 : FVec Ideal Cert.ReferenceIdeal.S256 .f32)
  (x11 : FVec Ideal Cert.ReferenceIdeal.S768x256 .f32) (x12 : FVec Ideal Cert.ReferenceIdeal.S256 .f32) (x13 : FVec Ideal Cert.ReferenceIdeal.S256x256 .f32)
  (x14 : FVec Ideal Cert.ReferenceIdeal.S256 .f32)

/-! ## The stages, index by index -/

/-- The joined array [h | agg] at (r, k): a feature for k < 512, an aggregated message after. -/
theorem v66_at (r : Fin 10000) (k : Fin 768) :
    val_main_v66 (F := Ideal) x0 x1 x2 x3 x4 x5 x6 x7 (ix2 r k)
      = if hk : k.val < 512 then x0 (ix2 r ⟨k.val, hk⟩)
        else val_main_v65 (F := Ideal) x0 x1 x2 x3 x4 x5 x6 x7 (ix2 r ⟨k.val - 512, by omega⟩) := by
  unfold val_main_v66
  generalize val_main_v65 (F := Ideal) x0 x1 x2 x3 x4 x5 x6 x7 = ag
  exact MeanAggregate.concat_cols_apply 10000 512 256 768 rfl x0 ag _ r k

/-- The first layer before its activation: the 768-wide product splits into the feature block and the message block. -/
theorem v70_at (r : Fin 10000) (k : Fin 256) :
    val_main_v70 (F := Ideal) x0 x1 x2 x3 x4 x5 x6 x7 x11 x12 (ix2 r k)
      = nodeH1 x0 (val_main_v65 (F := Ideal) x0 x1 x2 x3 x4 x5 x6 x7) (Cert.KernelIdeal.KT.nw1a x11) (Cert.KernelIdeal.KT.nw1b x11) x12 r k := by
  have h67 : val_main_v67 (F := Ideal) x0 x1 x2 x3 x4 x5 x6 x7 x11 (ix2 r k)
      = ∑ q : Fin 768, val_main_v66 (F := Ideal) x0 x1 x2 x3 x4 x5 x6 x7 (ix2 r q) * x11 (ix2 q k) := by
    rw [val_main_v67_apply]
    simp only [lidx67, ridx67]
  have h69 : val_main_v69 (F := Ideal) x12 (ix2 r k) = x12 (ix1 k) := by
    rw [val_main_v69_apply, val_main_v68_apply, idx6869]
  rw [val_main_v70_apply, Ideal.addf_def, h67, h69,
    cat_sum x0 (val_main_v65 (F := Ideal) x0 x1 x2 x3 x4 x5 x6 x7) (val_main_v66 (F := Ideal) x0 x1 x2 x3 x4 x5 x6 x7) x11 r k
      (v66_at x0 x1 x2 x3 x4 x5 x6 x7 r)]
  unfold nodeH1
  generalize val_main_v65 (F := Ideal) x0 x1 x2 x3 x4 x5 x6 x7 = ag
  simp only [nw1a_apply, nw1b_apply]

/-- The activated first layer. -/
theorem v71_at (r : Fin 10000) (k : Fin 256) :
    val_main_v71 (F := Ideal) x0 x1 x2 x3 x4 x5 x6 x7 x11 x12 (ix2 r k)
      = silu (nodeH1 x0 (val_main_v65 (F := Ideal) x0 x1 x2 x3 x4 x5 x6 x7) (Cert.KernelIdeal.KT.nw1a x11) (Cert.KernelIdeal.KT.nw1b x11) x12 r k) := by
  rw [val_main_v71_apply, val_main_call4_v5_apply, val_main_call4_v4_apply, val_main_call4_cst_0_apply,
    val_main_call4_v3_apply, val_main_call4_v2_apply, val_main_call4_cst_apply, val_main_call4_v1_apply,
    val_main_call4_v0_apply, v70_at]
  exact silu_host _

/-- The reference's new node features — one 768-wide layer on the features joined with the aggregated messages — are
    the node layer of the two: the sum over the 768 columns splits into the feature block and the message block. -/
theorem ref_node :
    val_main_v75 (F := Ideal) x0 x1 x2 x3 x4 x5 x6 x7 x11 x12 x13 x14
      = node x0 (val_main_v65 (F := Ideal) x0 x1 x2 x3 x4 x5 x6 x7) (Cert.KernelIdeal.KT.nw1a x11) (Cert.KernelIdeal.KT.nw1b x11) x12
          (Cert.KernelIdeal.KT.narrow x13) x14 := by
  funext i
  obtain ⟨r, j, rfl⟩ : ∃ (r : Fin 10000) (j : Fin 256), i = ix2 r j := ⟨i 0, i 1, eq_ix2 i⟩
  have h72 : val_main_v72 (F := Ideal) x0 x1 x2 x3 x4 x5 x6 x7 x11 x12 x13 (ix2 r j)
      = ∑ q : Fin 256, val_main_v71 (F := Ideal) x0 x1 x2 x3 x4 x5 x6 x7 x11 x12 (ix2 r q) * x13 (ix2 q j) := by
    rw [val_main_v72_apply]
    simp only [lidx72, ridx72]
  have h74 : val_main_v74 (F := Ideal) x14 (ix2 r j) = x14 (ix1 j) := by
    rw [val_main_v74_apply, val_main_v73_apply, idx7374]
  rw [val_main_v75_apply, h72, h74]
  show _ = nodeAt x0 (val_main_v65 (F := Ideal) x0 x1 x2 x3 x4 x5 x6 x7) (Cert.KernelIdeal.KT.nw1a x11) (Cert.KernelIdeal.KT.nw1b x11) x12
    (Cert.KernelIdeal.KT.narrow x13) x14 r j
  unfold nodeAt
  show (∑ q : Fin 256, val_main_v71 (F := Ideal) x0 x1 x2 x3 x4 x5 x6 x7 x11 x12 (ix2 r q) * x13 (ix2 q j)) + x14 (ix1 j) = _
  congr 1
  exact Finset.sum_congr rfl fun q _ => by rw [v71_at]; rfl

end Cert.Bridge.Node

end
-- ==== Proof.Bridge.lean ====
import proofs.«431407_j47528108097729_3_alg».proof.Proof.RefReadP
import proofs.«431407_j47528108097729_3_alg».proof.Proof.KTerms
import proofs.«431407_j47528108097729_3_alg».proof.Proof.RefEdge
import proofs.«431407_j47528108097729_3_alg».proof.Proof.RefNode
import Idealize.ShloMosaic.Lib.ValueIdx
import Idealize.ShloMosaic.Lib.Pipeline.Value
import Idealize.ShloMosaic.PureOps.Ideal.Laws

set_option maxRecDepth 16384

noncomputable section

open scoped BigOperators

/-! The reference's two results are the kernel program's closed terms: the edge layer and the node layer agree
    (the two modules imported above), and between them both programs apply the same segment sums to the same
    segment ids. -/

namespace Cert.Bridge

open Idealize.ShloMosaic Egnn
open Cert.ReferenceIdeal.ReadP

variable (x0 : FVec Ideal Cert.ReferenceIdeal.S10000x512 .f32) (x1 : IVec Cert.ReferenceIdeal.S2x160000 32) (x2 : FVec Ideal Cert.ReferenceIdeal.S160000x51 .f32)
  (x3 : FVec Ideal Cert.ReferenceIdeal.S10000x3 .f32) (x4 : FVec Ideal Cert.ReferenceIdeal.S1076x256 .f32) (x5 : FVec Ideal Cert.ReferenceIdeal.S256 .f32)
  (x6 : FVec Ideal Cert.ReferenceIdeal.S256x256 .f32) (x7 : FVec Ideal Cert.ReferenceIdeal.S256 .f32) (x8 : FVec Ideal Cert.ReferenceIdeal.S256x256 .f32)
  (x9 : FVec Ideal Cert.ReferenceIdeal.S256 .f32) (x10 : FVec Ideal Cert.ReferenceIdeal.S256x1 .f32)
  (x11 : FVec Ideal Cert.ReferenceIdeal.S768x256 .f32) (x12 : FVec Ideal Cert.ReferenceIdeal.S256 .f32) (x13 : FVec Ideal Cert.ReferenceIdeal.S256x256 .f32)
  (x14 : FVec Ideal Cert.ReferenceIdeal.S256 .f32)

/-- The aggregated messages: the same segment sum of the same messages. -/
theorem ref_agg :
    val_main_v65 (F := Ideal) x0 x1 x2 x3 x4 x5 x6 x7 = Cert.KernelIdeal.KT.aggNode x0 x1 x2 x3 x4 x5 x6 x7 := by
  unfold val_main_v65 Cert.KernelIdeal.KT.aggNode
  rw [Edge.ref_e]
  rfl

/-- The first result. -/
theorem ref_out0 :
    val_main_v75 (F := Ideal) x0 x1 x2 x3 x4 x5 x6 x7 x11 x12 x13 x14
      = Cert.KernelIdeal.KT.out0 x0 x1 x2 x3 x4 x5 x6 x7 x11 x12 x13 x14 := by
  rw [Node.ref_node, ref_agg]
  rfl

/-- The second result: the coordinates plus the same segment sum of the same coordinate updates. -/
theorem ref_out1 :
    val_main_v62 (F := Ideal) x0 x1 x2 x3 x4 x5 x6 x7 x8 x9 x10
      = Cert.KernelIdeal.KT.out1 x0 x1 x2 x3 x4 x5 x6 x7 x8 x9 x10 := by
  unfold val_main_v62 val_main_v61 Cert.KernelIdeal.KT.out1 Cert.KernelIdeal.KT.aggCoord
  rw [Edge.ref_t]
  rfl

end Cert.Bridge

end
-- ==== Proof.lean ====
/-
  The certificate of one layer of an E(n)-equivariant graph network (edge messages and coordinate updates from the
  node features and coordinates, segment sums per source node, then a node update).

  THE KERNEL runs the layer as three launches among host operations: it first projects every node's features through
  the two 512-row blocks of the first edge weight matrix, gathers the PROJECTED 256-wide rows per edge, and adds the
  attribute block's product and the radial row's product in the edge launch; the node launch multiplies the features
  and the aggregated messages by the two row blocks of the first node weight matrix. THE REFERENCE gathers the 512-wide
  features, joins them with the attributes and the radial column into 1076 columns, and multiplies once by the whole
  matrix; likewise 768 columns for the node layer.

  At the ideal values the two are one function: a sum over the joined columns is the sum of the sums over the blocks
  (extended reals add associatively and commutatively; no finiteness is used), a row gather commutes with a product
  on the right, the narrower float formats are the identity, and the logistic function is the reference's
  1 / (1 + exp (−x)). What each launch leaves in its result arrays is read off the frame run block by block
  (`Region0`, `Region1`, `Region2`), the host operations between the launches are walked in `KFold`, and the
  reference's stages are rewritten into the same closed terms in `RefEdge`, `RefNode`, `Bridge`.
-/
import proofs.«431407_j47528108097729_3_alg».proof.Defs
import proofs.«431407_j47528108097729_3_alg».proof.Proof.Gen.Kernel
import proofs.«431407_j47528108097729_3_alg».proof.Proof.Gen.Kernel.Skeleton
import proofs.«431407_j47528108097729_3_alg».proof.Proof.Gen.Kernel.Launch
import proofs.«431407_j47528108097729_3_alg».proof.Proof.Gen.Kernel.Points
import proofs.«431407_j47528108097729_3_alg».proof.Proof.Gen.Kernel.Frame
import proofs.«431407_j47528108097729_3_alg».proof.Proof.Gen.KernelIdeal
import proofs.«431407_j47528108097729_3_alg».proof.Proof.Gen.KernelIdeal.Skeleton
import proofs.«431407_j47528108097729_3_alg».proof.Proof.Gen.KernelIdeal.Launch
import proofs.«431407_j47528108097729_3_alg».proof.Proof.Gen.KernelIdeal.Points
import proofs.«431407_j47528108097729_3_alg».proof.Proof.Gen.KernelIdeal.Frame
import proofs.«431407_j47528108097729_3_alg».proof.Proof.Gen.ReferenceIdeal
import proofs.«431407_j47528108097729_3_alg».proof.Proof.RefRunP
import proofs.«431407_j47528108097729_3_alg».proof.Proof.RefReadP
import proofs.«431407_j47528108097729_3_alg».proof.Proof.Gen.Pre_finite_inputs
import proofs.«431407_j47528108097729_3_alg».proof.Proof.KRun
import proofs.«431407_j47528108097729_3_alg».proof.Proof.KFold
import proofs.«431407_j47528108097729_3_alg».proof.Proof.Region0
import proofs.«431407_j47528108097729_3_alg».proof.Proof.Region1
import proofs.«431407_j47528108097729_3_alg».proof.Proof.Region2
import proofs.«431407_j47528108097729_3_alg».proof.Proof.Bridge
import Idealize.ShloMosaic.Adequacy
import Idealize.ShloMosaic.Init

noncomputable section

namespace Cert.Proof

open Idealize.ShloMosaic Idealize.SL.Sem

/-- What the three launches compute, for any contents of the buffers at a launch's entry. -/
theorem launches : Cert.KernelIdeal.Fold.Launches :=
  ⟨Cert.KernelIdeal.Val0.arr0_3, Cert.KernelIdeal.Val0.arr0_4, Cert.KernelIdeal.Val1.arr1_12, Cert.KernelIdeal.Val1.arr1_13,
    Cert.KernelIdeal.Val2.arr2_7⟩

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the new node features at `KT.out0` and the new coordinates at `KT.out1` of the
    arguments: the kernel's by the walk through its segments, the reference's by the rewriting of its stages. -/
theorem algebraic : Cert.algebraic_KernelIdeal_ReferenceIdeal := by
  intro m ρ m' ρ' _ hagree
  refine ⟨fun c => Cert.KernelIdeal.KT.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.KernelIdeal.KT.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.ValRun.run (F := Ideal) m ρ)
    obtain ⟨h0, h1, hargs⟩ := h c
    exact ⟨h0.trans (Cert.KernelIdeal.Fold.W6_v58 m ρ c launches), h1.trans (Cert.KernelIdeal.Fold.W6_v52 m ρ c launches), hargs⟩
  · refine (θ_run Cert.ReferenceIdeal.defs _ _).mono (fun r h c => ?_) (Cert.ReferenceIdeal.ValueP.run (F := Ideal) m' ρ')
    obtain ⟨h0, h1, hargs⟩ := h c
    obtain ⟨e0, e1, e2, e3, e4, e5, e6, e7, e8, e9, e10, e11, e12, e13, e14⟩ := hagree c
    refine ⟨h0.trans ?_, h1.trans ?_, hargs⟩
    · rw [Cert.ReferenceIdeal.ReadP.val_main_v75_eq, Cert.Bridge.ref_out0, e0, e1, e2, e3, e4, e5, e6, e7, e11, e12, e13, e14]
    · rw [Cert.ReferenceIdeal.ReadP.val_main_v62_eq, Cert.Bridge.ref_out1, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
